-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v5_1)) (v1 : (c : Dev Cert.KernelIdeal.nD) → Buf (Elt Ideal) ((c.tc : Thread Cert.KernelIdeal.nD Cert.KernelIdeal.τ).loc Cert.KernelIdeal.main_v5_0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v5_1) = v0 c
          ∧ r.2.mem ((c.tc : Thread Cert.KernelIdeal.nD Cert.KernelIdeal.τ).loc Cert.KernelIdeal.main_v5_0) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v17) = v0 c
          ∧ r.2.mem ((c.tc : Thread Cert.ReferenceIdeal.nD Cert.ReferenceIdeal.τ).loc Cert.ReferenceIdeal.main_v11) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8192x1024 : Shape := ⟨2, ![8192, 1024]⟩
abbrev S8192x4096 : Shape := ⟨2, ![8192, 4096]⟩
abbrev S4096x1024 : Shape := ⟨2, ![4096, 1024]⟩
abbrev S4096 : Shape := ⟨1, ![4096]⟩
abbrev S4096x4096 : Shape := ⟨2, ![4096, 4096]⟩
abbrev S1024x4096 : Shape := ⟨2, ![1024, 4096]⟩
abbrev S1024 : Shape := ⟨1, ![1024]⟩
abbrev S_ : Shape := ⟨0, ![]⟩

class Facts : Prop where
  bcast_S_S8192x1024 : S_.BroadcastsInDim S8192x1024 (![] : Fin 0 → Fin S8192x1024.rank)
  reducesTo_S8192x1024_S_d0_1 : S8192x1024.ReducesTo [0, 1] S_
  h_S_ : 0 < S_.numel
  bcast_S_S8192x4096 : S_.BroadcastsInDim S8192x4096 (![] : Fin 0 → Fin S8192x4096.rank)
  reducesTo_S8192x4096_S_d0_1 : S8192x4096.ReducesTo [0, 1] S_
  bcast_S_S4096x1024 : S_.BroadcastsInDim S4096x1024 (![] : Fin 0 → Fin S4096x1024.rank)
  reducesTo_S4096x1024_S_d0_1 : S4096x1024.ReducesTo [0, 1] S_
  bcast_S_S4096 : S_.BroadcastsInDim S4096 (![] : Fin 0 → Fin S4096.rank)
  reducesTo_S4096_S_d0 : S4096.ReducesTo [0] S_
  bcast_S_S4096x4096 : S_.BroadcastsInDim S4096x4096 (![] : Fin 0 → Fin S4096x4096.rank)
  reducesTo_S4096x4096_S_d0_1 : S4096x4096.ReducesTo [0, 1] S_
  bcast_S_S1024x4096 : S_.BroadcastsInDim S1024x4096 (![] : Fin 0 → Fin S1024x4096.rank)
  reducesTo_S1024x4096_S_d0_1 : S1024x4096.ReducesTo [0, 1] S_
  bcast_S_S1024 : S_.BroadcastsInDim S1024 (![] : Fin 0 → Fin S1024.rank)
  reducesTo_S1024_S_d0 : S1024.ReducesTo [0] S_

variable [Facts]

def fn_part2 {F : FTy → Type} [FloatOps F] (main_arg7 : FVec F S1024 .f32) (main_v33 : IVec S_ 1) : IVec S_ 1 :=
  let main_v34 : FVec F S1024 .f32 := Host.absf main_arg7
  let main_cst_12 : FVec F S_ .f32 := constant S_ .f32 0x7F800000#32
  let main_v35 : FVec F S1024 .f32 := broadcastInDim S1024 ![] bcast_S_S1024 main_cst_12
  let main_v36 : IVec S1024 1 := cmpf .olt main_v34 main_v35
  let main_c_13 : IVec S_ 1 := constantI S_ 1 1#1
  let main_v37 : IVec S_ 1 := (fun x v => Host.reduce IntOp.andi x v reducesTo_S1024_S_d0 h_S_) main_v36 main_c_13
  let main_v38 : IVec S_ 1 := andi main_v33 main_v37
  main_v38

def fn_part1 {F : FTy → Type} [FloatOps F] (main_arg4 : FVec F S4096x4096 .f32) (main_arg5 : FVec F S4096 .f32) (main_arg6 : FVec F S1024x4096 .f32) (main_arg7 : FVec F S1024 .f32) (main_v13 : IVec S_ 1) (main_v16 : IVec S4096 1) : IVec S_ 1 :=
  let main_c_5 : IVec S_ 1 := constantI S_ 1 1#1
  let main_v17 : IVec S_ 1 := (fun x v => Host.reduce IntOp.andi x v reducesTo_S4096_S_d0 h_S_) main_v16 main_c_5
  let main_v18 : IVec S_ 1 := andi main_v13 main_v17
  let main_v19 : FVec F S4096x4096 .f32 := Host.absf main_arg4
  let main_cst_6 : FVec F S_ .f32 := constant S_ .f32 0x7F800000#32
  let main_v20 : FVec F S4096x4096 .f32 := broadcastInDim S4096x4096 ![] bcast_S_S4096x4096 main_cst_6
  let main_v21 : IVec S4096x4096 1 := cmpf .olt main_v19 main_v20
  let main_c_7 : IVec S_ 1 := constantI S_ 1 1#1
  let main_v22 : IVec S_ 1 := (fun x v => Host.reduce IntOp.andi x v reducesTo_S4096x4096_S_d0_1 h_S_) main_v21 main_c_7
  let main_v23 : IVec S_ 1 := andi main_v18 main_v22
  let main_v24 : FVec F S4096 .f32 := Host.absf main_arg5
  let main_cst_8 : FVec F S_ .f32 := constant S_ .f32 0x7F800000#32
  let main_v25 : FVec F S4096 .f32 := broadcastInDim S4096 ![] bcast_S_S4096 main_cst_8
  let main_v26 : IVec S4096 1 := cmpf .olt main_v24 main_v25
  let main_c_9 : IVec S_ 1 := constantI S_ 1 1#1
  let main_v27 : IVec S_ 1 := (fun x v => Host.reduce IntOp.andi x v reducesTo_S4096_S_d0 h_S_) main_v26 main_c_9
  let main_v28 : IVec S_ 1 := andi main_v23 main_v27
  let main_v29 : FVec F S1024x4096 .f32 := Host.absf main_arg6
  let main_cst_10 : FVec F S_ .f32 := constant S_ .f32 0x7F800000#32
  let main_v30 : FVec F S1024x4096 .f32 := broadcastInDim S1024x4096 ![] bcast_S_S1024x4096 main_cst_10
  let main_v31 : IVec S1024x4096 1 := cmpf .olt main_v29 main_v30
  let main_c_11 : IVec S_ 1 := constantI S_ 1 1#1
  let main_v32 : IVec S_ 1 := (fun x v => Host.reduce IntOp.andi x v reducesTo_S1024x4096_S_d0_1 h_S_) main_v31 main_c_11
  let main_v33 : IVec S_ 1 := andi main_v28 main_v32
  fn_part2 (F := F) main_arg7 main_v33

def fn {F : FTy → Type} [FloatOps F] (main_arg0 : FVec F S8192x1024 .f32) (main_arg1 : FVec F S8192x4096 .f32) (main_arg2 : FVec F S4096x1024 .f32) (main_arg3 : FVec F S4096 .f32) (main_arg4 : FVec F S4096x4096 .f32) (main_arg5 : FVec F S4096 .f32) (main_arg6 : FVec F S1024x4096 .f32) (main_arg7 : FVec F S1024 .f32) : IVec S_ 1 :=
  let main_v0 : FVec F S8192x1024 .f32 := Host.absf main_arg0
  let main_cst : FVec F S_ .f32 := constant S_ .f32 0x7F800000#32
  let main_v1 : FVec F S8192x1024 .f32 := broadcastInDim S8192x1024 ![] bcast_S_S8192x1024 main_cst
  let main_v2 : IVec S8192x1024 1 := cmpf .olt main_v0 main_v1
  let main_c : IVec S_ 1 := constantI S_ 1 1#1
  let main_v3 : IVec S_ 1 := (fun x v => Host.reduce IntOp.andi x v reducesTo_S8192x1024_S_d0_1 h_S_) main_v2 main_c
  let main_v4 : FVec F S8192x4096 .f32 := Host.absf main_arg1
  let main_cst_0 : FVec F S_ .f32 := constant S_ .f32 0x7F800000#32
  let main_v5 : FVec F S8192x4096 .f32 := broadcastInDim S8192x4096 ![] bcast_S_S8192x4096 main_cst_0
  let main_v6 : IVec S8192x4096 1 := cmpf .olt main_v4 main_v5
  let main_c_1 : IVec S_ 1 := constantI S_ 1 1#1
  let main_v7 : IVec S_ 1 := (fun x v => Host.reduce IntOp.andi x v reducesTo_S8192x4096_S_d0_1 h_S_) main_v6 main_c_1
  let main_v8 : IVec S_ 1 := andi main_v3 main_v7
  let main_v9 : FVec F S4096x1024 .f32 := Host.absf main_arg2
  let main_cst_2 : FVec F S_ .f32 := constant S_ .f32 0x7F800000#32
  let main_v10 : FVec F S4096x1024 .f32 := broadcastInDim S4096x1024 ![] bcast_S_S4096x1024 main_cst_2
  let main_v11 : IVec S4096x1024 1 := cmpf .olt main_v9 main_v10
  let main_c_3 : IVec S_ 1 := constantI S_ 1 1#1
  let main_v12 : IVec S_ 1 := (fun x v => Host.reduce IntOp.andi x v reducesTo_S4096x1024_S_d0_1 h_S_) main_v11 main_c_3
  let main_v13 : IVec S_ 1 := andi main_v8 main_v12
  let main_v14 : FVec F S4096 .f32 := Host.absf main_arg3
  let main_cst_4 : FVec F S_ .f32 := constant S_ .f32 0x7F800000#32
  let main_v15 : FVec F S4096 .f32 := broadcastInDim S4096 ![] bcast_S_S4096 main_cst_4
  let main_v16 : IVec S4096 1 := cmpf .olt main_v14 main_v15
  fn_part1 (F := F) main_arg4 main_arg5 main_arg6 main_arg7 main_v13 main_v16
-- ==== Kernel.lean ====
abbrev S8192x1024 : Shape := ⟨2, ![8192, 1024]⟩
abbrev S8192x4096 : Shape := ⟨2, ![8192, 4096]⟩
abbrev S4096x1024 : Shape := ⟨2, ![4096, 1024]⟩
abbrev S4096 : Shape := ⟨1, ![4096]⟩
abbrev S4096x4096 : Shape := ⟨2, ![4096, 4096]⟩
abbrev S1024x4096 : Shape := ⟨2, ![1024, 4096]⟩
abbrev S1024 : Shape := ⟨1, ![1024]⟩
abbrev S128x1024 : Shape := ⟨2, ![128, 1024]⟩
abbrev S128x256 : Shape := ⟨2, ![128, 256]⟩
abbrev S4096x256 : Shape := ⟨2, ![4096, 256]⟩
abbrev S128x4096 : Shape := ⟨2, ![128, 4096]⟩
abbrev S256x4096 : Shape := ⟨2, ![256, 4096]⟩
abbrev S1x4096 : Shape := ⟨2, ![1, 4096]⟩
abbrev S1x1024 : Shape := ⟨2, ![1, 1024]⟩

abbrev nBuf : Space → Nat
  | .hbm => 15
  | .vmem => 16
  | .smem => 0
  | _ => 0

abbrev bufTy : (tb : Table) → Fin (tcTables nBuf tb) → BufTy
  | .hbm, ⟨0, _⟩ => ⟨S8192x1024, .f32⟩
  | .hbm, ⟨1, _⟩ => ⟨S8192x4096, .f32⟩
  | .hbm, ⟨2, _⟩ => ⟨S4096x1024, .f32⟩
  | .hbm, ⟨3, _⟩ => ⟨S4096, .f32⟩
  | .hbm, ⟨4, _⟩ => ⟨S4096x4096, .f32⟩
  | .hbm, ⟨5, _⟩ => ⟨S4096, .f32⟩
  | .hbm, ⟨6, _⟩ => ⟨S1024x4096, .f32⟩
  | .hbm, ⟨7, _⟩ => ⟨S1024, .f32⟩
  | .hbm, ⟨8, _⟩ => ⟨S8192x1024, .bf16⟩
  | .hbm, ⟨9, _⟩ => ⟨S8192x4096, .bf16⟩
  | .hbm, ⟨10, _⟩ => ⟨S4096x1024, .bf16⟩
  | .hbm, ⟨11, _⟩ => ⟨S4096x4096, .bf16⟩
  | .hbm, ⟨12, _⟩ => ⟨S1024x4096, .bf16⟩
  | .hbm, ⟨13, _⟩ => ⟨S8192x4096, .f32⟩
  | .hbm, ⟨14, _⟩ => ⟨S8192x1024, .f32⟩
  | .local _ .vmem, ⟨0, _⟩ => ⟨S128x1024, .bf16⟩
  | .local _ .vmem, ⟨1, _⟩ => ⟨S128x1024, .bf16⟩
  | .local _ .vmem, ⟨2, _⟩ => ⟨S128x256, .bf16⟩
  | .local _ .vmem, ⟨3, _⟩ => ⟨S128x256, .bf16⟩
  | .local _ .vmem, ⟨4, _⟩ => ⟨S4096x1024, .bf16⟩
  | .local _ .vmem, ⟨5, _⟩ => ⟨S4096, .f32⟩
  | .local _ .vmem, ⟨6, _⟩ => ⟨S4096x256, .bf16⟩
  | .local _ .vmem, ⟨7, _⟩ => ⟨S4096x256, .bf16⟩
  | .local _ .vmem, ⟨8, _⟩ => ⟨S4096, .f32⟩
  | .local _ .vmem, ⟨9, _⟩ => ⟨S1024x4096, .bf16⟩
  | .local _ .vmem, ⟨10, _⟩ => ⟨S1024, .f32⟩
  | .local _ .vmem, ⟨11, _⟩ => ⟨S128x4096, .f32⟩
  | .local _ .vmem, ⟨12, _⟩ => ⟨S128x4096, .f32⟩
  | .local _ .vmem, ⟨13, _⟩ => ⟨S128x1024, .f32⟩
  | .local _ .vmem, ⟨14, _⟩ => ⟨S128x1024, .f32⟩
  | .local _ .vmem, ⟨15, _⟩ => ⟨S128x4096, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5_0 : Ref sig .tc := ⟨.hbm, 13, rfl⟩
abbrev main_v5_1 : Ref sig .tc := ⟨.hbm, 14, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg8_0 : Ref sig .tc := ⟨.vmem, 11, rfl⟩
abbrev cc0_stg8_1 : Ref sig .tc := ⟨.vmem, 12, rfl⟩
abbrev cc0_stg9_0 : Ref sig .tc := ⟨.vmem, 13, rfl⟩
abbrev cc0_stg9_1 : Ref sig .tc := ⟨.vmem, 14, rfl⟩
abbrev cc0_scratch0 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem6_0 : DmaSem sig := 9
abbrev cc0_sem7_0 : DmaSem sig := 10
abbrev cc0_sem8_0 : DmaSem sig := 11
abbrev cc0_sem8_1 : DmaSem sig := 12
abbrev cc0_sem9_0 : DmaSem sig := 13
abbrev cc0_sem9_1 : DmaSem sig := 14

abbrev nD : Nat := 1
abbrev τ : Topo := Topo.v7x

variable {F : FTy → Type} [FloatOps F]

abbrev grid0 : Pipeline.Grid := ⟨2, ![64, 16], ![false, false]⟩

def k0_cond2 (i : grid0.Coords) : BitVec 1 :=
  let arg1 : BitVec 32 := BitVec.ofNat 32 (i 1).val
  let c15_i32 : BitVec 32 := 15#32
  let v14 : BitVec 1 := Scalar.cmpi .eq arg1 c15_i32
  let v15 : BitVec 32 := Scalar.extui v14
  let c0_i32_8 : BitVec 32 := 0#32
  let v16 : BitVec 1 := Scalar.cmpi .ne v15 c0_i32_8
  v16

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_5 (i : grid0.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S128x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S128x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 1 → Memref sig .tc .vmem S4096x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S4096 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 2 → Memref sig .tc .vmem S4096x256 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true]

abbrev stage0_5 : Fin 1 → Memref sig .tc .vmem S4096 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S1024x4096 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 2 → Memref sig .tc .vmem S128x4096 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, false]

abbrev stage0_9 : Fin 2 → Memref sig .tc .vmem S128x1024 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, false]

class Facts₀ : Prop where
  bitsLt_bf16_f32 : FTy.bits .bf16 < FTy.bits .f32
  inb_S128x1024_S128x1024_0_0 : ∀ a, (![0, 0] : Fin 2 → Nat) a + S128x1024.size a ≤ S128x1024.size a
  h_S128x1024 : 0 < S128x1024.numel
  shapeCasts_S128x1024_S128x1024 : S128x1024.ShapeCasts S128x1024
  inb_S4096x1024_S4096x1024_0_0 : ∀ a, (![0, 0] : Fin 2 → Nat) a + S4096x1024.size a ≤ S4096x1024.size a
  h_S4096x1024 : 0 < S4096x1024.numel
  shapeCasts_S4096x1024_S4096x1024 : S4096x1024.ShapeCasts S4096x1024
  transposes_S4096x1024_p1_0_S1024x4096 : S4096x1024.Transposes [1, 0] S1024x4096
  inb_S128x4096_S128x4096_0_0 : ∀ a, (![0, 0] : Fin 2 → Nat) a + S128x4096.size a ≤ S128x4096.size a
  h_S128x4096 : 0 < S128x4096.numel
  shapeCasts_S128x4096_S128x4096 : S128x4096.ShapeCasts S128x4096
  inb_S128x256_S128x256_0_0 : ∀ a, (![0, 0] : Fin 2 → Nat) a + S128x256.size a ≤ S128x256.size a
  h_S128x256 : 0 < S128x256.numel
  shapeCasts_S128x256_S128x256 : S128x256.ShapeCasts S128x256
  inb_S4096x256_S4096x256_0_0 : ∀ a, (![0, 0] : Fin 2 → Nat) a + S4096x256.size a ≤ S4096x256.size a
  h_S4096x256 : 0 < S4096x256.numel
  shapeCasts_S4096x256_S4096x256 : S4096x256.ShapeCasts S4096x256
  transposes_S4096x256_p1_0_S256x4096 : S4096x256.Transposes [1, 0] S256x4096
  inb_S4096_S4096_0 : ∀ a, (![0] : Fin 1 → Nat) a + S4096.size a ≤ S4096.size a
  h_S4096 : 0 < S4096.numel
  shapeCasts_S4096_S1x4096 : S4096.ShapeCasts S1x4096
  broadcasts_S1x4096_S128x4096 : S1x4096.Broadcasts S128x4096
  inb_S1024x4096_S1024x4096_0_0 : ∀ a, (![0, 0] : Fin 2 → Nat) a + S1024x4096.size a ≤ S1024x4096.size a
  h_S1024x4096 : 0 < S1024x4096.numel
  shapeCasts_S1024x4096_S1024x4096 : S1024x4096.ShapeCasts S1024x4096
  transposes_S1024x4096_p1_0_S4096x1024 : S1024x4096.Transposes [1, 0] S4096x1024
  inb_S1024_S1024_0 : ∀ a, (![0] : Fin 1 → Nat) a + S1024.size a ≤ S1024.size a
  h_S1024 : 0 < S1024.numel
  shapeCasts_S1024_S1x1024 : S1024.ShapeCasts S1x1024
  broadcasts_S1x1024_S128x1024 : S1x1024.Broadcasts S128x1024
  dot_S128x1024_S1024x4096_S128x4096_1_0_0_1_n_n_wf : DotDims.WF S128x1024 S1024x4096 S128x4096 [1] [0] [0] [1] [] []
  dot_S128x256_S256x4096_S128x4096_1_0_0_1_n_n_wf : DotDims.WF S128x256 S256x4096 S128x4096 [1] [0] [0] [1] [] []
  dot_S128x4096_S4096x1024_S128x1024_1_0_0_1_n_n_wf : DotDims.WF S128x4096 S4096x1024 S128x1024 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S128x1024.size a ≤ S8192x1024.size a
  hwx0_0 : ∀ i : grid0.Coords, EltTy.bits .bf16 = 32 ∨ (Rect.block (s := S8192x1024) S128x1024.size (cc0_transform_0 i) (hinb0_0 i)).WholeWords (EltTy.packing .bf16)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S128x256.size a ≤ S8192x4096.size a
  hwx0_1 : ∀ i : grid0.Coords, EltTy.bits .bf16 = 32 ∨ (Rect.block (s := S8192x4096) S128x256.size (cc0_transform_1 i) (hinb0_1 i)).WholeWords (EltTy.packing .bf16)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S4096x1024.size a ≤ S4096x1024.size a
  hwx0_2 : ∀ i : grid0.Coords, EltTy.bits .bf16 = 32 ∨ (Rect.block (s := S4096x1024) S4096x1024.size (cc0_transform_2 i) (hinb0_2 i)).WholeWords (EltTy.packing .bf16)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S4096.size a ≤ S4096.size a
  hwx0_3 : ∀ i : grid0.Coords, EltTy.bits .f32 = 32 ∨ (Rect.block (s := S4096) S4096.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S4096x256.size a ≤ S4096x4096.size a
  hwx0_4 : ∀ i : grid0.Coords, EltTy.bits .bf16 = 32 ∨ (Rect.block (s := S4096x4096) S4096x256.size (cc0_transform_4 i) (hinb0_4 i)).WholeWords (EltTy.packing .bf16)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S4096.size a ≤ S4096.size a
  hwx0_5 : ∀ i : grid0.Coords, EltTy.bits .f32 = 32 ∨ (Rect.block (s := S4096) S4096.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S1024x4096.size a ≤ S1024x4096.size a
  hwx0_6 : ∀ i : grid0.Coords, EltTy.bits .bf16 = 32 ∨ (Rect.block (s := S1024x4096) S1024x4096.size (cc0_transform_6 i) (hinb0_6 i)).WholeWords (EltTy.packing .bf16)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S1024.size a ≤ S1024.size a
  hwx0_7 : ∀ i : grid0.Coords, EltTy.bits .f32 = 32 ∨ (Rect.block (s := S1024) S1024.size (cc0_transform_7 i) (hinb0_7 i)).WholeWords (EltTy.packing .f32)
  hstage0_8 : ∀ j, (stage0_8 j).IsWhole
  nbuf0_8 : grid0.bufCount reads0_8 false = 2
  hreads0_8 : ∀ i i' : grid0.Coords, (∀ a, reads0_8 a = true → i a = i' a) → cc0_transform_8 i = cc0_transform_8 i'
  hinb0_8 : ∀ (i : grid0.Coords) a, (cc0_transform_8 i a + 1) * S128x4096.size a ≤ S8192x4096.size a
  hwx0_8 : ∀ i : grid0.Coords, EltTy.bits .f32 = 32 ∨ (Rect.block (s := S8192x4096) S128x4096.size (cc0_transform_8 i) (hinb0_8 i)).WholeWords (EltTy.packing .f32)
  hstage0_9 : ∀ j, (stage0_9 j).IsWhole
  nbuf0_9 : grid0.bufCount reads0_9 false = 2
  hreads0_9 : ∀ i i' : grid0.Coords, (∀ a, reads0_9 a = true → i a = i' a) → cc0_transform_9 i = cc0_transform_9 i'
  hinb0_9 : ∀ (i : grid0.Coords) a, (cc0_transform_9 i a + 1) * S128x1024.size a ≤ S8192x1024.size a
  hwx0_9 : ∀ i : grid0.Coords, EltTy.bits .f32 = 32 ∨ (Rect.block (s := S8192x1024) S128x1024.size (cc0_transform_9 i) (hinb0_9 i)).WholeWords (EltTy.packing .f32)

variable [Facts₀]

def dot_S128x1024_S1024x4096_S128x4096_1_0_0_1_n_n : DotDims S128x1024 S1024x4096 S128x4096 where
  lhsContracting := [1]
  rhsContracting := [0]
  lhsNonContracting := [0]
  rhsNonContracting := [1]
  lhsBatch := []
  rhsBatch := []
  wf := dot_S128x1024_S1024x4096_S128x4096_1_0_0_1_n_n_wf
def dot_S128x256_S256x4096_S128x4096_1_0_0_1_n_n : DotDims S128x256 S256x4096 S128x4096 where
  lhsContracting := [1]
  rhsContracting := [0]
  lhsNonContracting := [0]
  rhsNonContracting := [1]
  lhsBatch := []
  rhsBatch := []
  wf := dot_S128x256_S256x4096_S128x4096_1_0_0_1_n_n_wf
def dot_S128x4096_S4096x1024_S128x1024_1_0_0_1_n_n : DotDims S128x4096 S4096x1024 S128x1024 where
  lhsContracting := [1]
  rhsContracting := [0]
  lhsNonContracting := [0]
  rhsNonContracting := [1]
  lhsBatch := []
  rhsBatch := []
  wf := dot_S128x4096_S4096x1024_S128x1024_1_0_0_1_n_n_wf

abbrev win0_0 : Pipeline.Window sig grid0 :=
  Pipeline.Window.ofSpec (Memref.whole main_v0) S128x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S128x256.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v2) S4096x1024.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg3) S4096.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v3) S4096x256.size cc0_transform_4 reads0_4 false false 2 stage0_4 sem0_4
    hrank0 hreads0_4 hinb0_4 nbuf0_4 (Memref.isWhole_whole _) hwx0_4 hstage0_4

abbrev win0_5 : Pipeline.Window sig grid0 :=
  Pipeline.Window.ofSpec (Memref.whole main_arg5) S4096.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v4) S1024x4096.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_arg7) S1024.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_v5_0) S128x4096.size cc0_transform_8 reads0_8 true false 2 stage0_8 sem0_8
    hrank0 hreads0_8 hinb0_8 nbuf0_8 (Memref.isWhole_whole _) hwx0_8 hstage0_8

abbrev win0_9 : Pipeline.Window sig grid0 :=
  Pipeline.Window.ofSpec (Memref.whole main_v5_1) S128x1024.size cc0_transform_9 reads0_9 true false 2 stage0_9 sem0_9
    hrank0 hreads0_9 hinb0_9 nbuf0_9 (Memref.isWhole_whole _) hwx0_9 hstage0_9

abbrev win0 : Fin 10 → Pipeline.Window sig grid0 := fun | 0 => win0_0 | 1 => win0_1 | 2 => win0_2 | 3 => win0_3 | 4 => win0_4 | 5 => win0_5 | 6 => win0_6 | 7 => win0_7 | 8 => win0_8 | 9 => win0_9 | ⟨_ + 10, h⟩ => absurd h (Nat.not_lt.2 (Nat.le_add_left _ _))
abbrev spec0 : Fin 10 → Pipeline.WinSpec sig grid0.rank := fun w => (win0 w).toWinSpec

abbrev idle0 : Fin 10 → grid0.Coords → Bool := fun | 0 => fun _ => false | 1 => fun _ => false | 2 => fun _ => false | 3 => fun _ => false | 4 => fun _ => false | 5 => fun _ => false | 6 => fun _ => false | 7 => fun _ => false | 8 => fun i => !(k0_cond2 i == 1#1) | 9 => fun i => !(k0_cond2 i == 1#1) | ⟨_ + 10, h⟩ => absurd h (Nat.not_lt.2 (Nat.le_add_left _ _))

class Facts : Prop extends Facts₀ where

variable [Facts]
-- ==== ReferenceIdeal.lean ====
abbrev S8192x1024 : Shape := ⟨2, ![8192, 1024]⟩
abbrev S8192x4096 : Shape := ⟨2, ![8192, 4096]⟩
abbrev S4096x1024 : Shape := ⟨2, ![4096, 1024]⟩
abbrev S4096 : Shape := ⟨1, ![4096]⟩
abbrev S4096x4096 : Shape := ⟨2, ![4096, 4096]⟩
abbrev S1024x4096 : Shape := ⟨2, ![1024, 4096]⟩
abbrev S1024 : Shape := ⟨1, ![1024]⟩
abbrev S1x4096 : Shape := ⟨2, ![1, 4096]⟩
abbrev S_ : Shape := ⟨0, ![]⟩
abbrev S1x1024 : Shape := ⟨2, ![1, 1024]⟩

abbrev nBuf : Space → Nat
  | .hbm => 30
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S8192x4096, .f32⟩
  | .hbm, ⟨2, _⟩ => ⟨S4096x1024, .f32⟩
  | .hbm, ⟨3, _⟩ => ⟨S4096, .f32⟩
  | .hbm, ⟨4, _⟩ => ⟨S4096x4096, .f32⟩
  | .hbm, ⟨5, _⟩ => ⟨S4096, .f32⟩
  | .hbm, ⟨6, _⟩ => ⟨S1024x4096, .f32⟩
  | .hbm, ⟨7, _⟩ => ⟨S1024, .f32⟩
  | .hbm, ⟨8, _⟩ => ⟨S1024x4096, .f32⟩
  | .hbm, ⟨9, _⟩ => ⟨S8192x4096, .f32⟩
  | .hbm, ⟨10, _⟩ => ⟨S1x4096, .f32⟩
  | .hbm, ⟨11, _⟩ => ⟨S8192x4096, .f32⟩
  | .hbm, ⟨12, _⟩ => ⟨S8192x4096, .f32⟩
  | .hbm, ⟨13, _⟩ => ⟨S4096x4096, .f32⟩
  | .hbm, ⟨14, _⟩ => ⟨S8192x4096, .f32⟩
  | .hbm, ⟨15, _⟩ => ⟨S8192x4096, .f32⟩
  | .hbm, ⟨16, _⟩ => ⟨S1x4096, .f32⟩
  | .hbm, ⟨17, _⟩ => ⟨S8192x4096, .f32⟩
  | .hbm, ⟨18, _⟩ => ⟨S8192x4096, .f32⟩
  | .hbm, ⟨19, _⟩ => ⟨S_, .f32⟩
  | .hbm, ⟨20, _⟩ => ⟨S8192x4096, .f32⟩
  | .hbm, ⟨21, _⟩ => ⟨S8192x4096, .f32⟩
  | .hbm, ⟨22, _⟩ => ⟨S4096x1024, .f32⟩
  | .hbm, ⟨23, _⟩ => ⟨S8192x1024, .f32⟩
  | .hbm, ⟨24, _⟩ => ⟨S1x1024, .f32⟩
  | .hbm, ⟨25, _⟩ => ⟨S8192x1024, .f32⟩
  | .hbm, ⟨26, _⟩ => ⟨S8192x1024, .f32⟩
  | .hbm, ⟨27, _⟩ => ⟨S_, .f32⟩
  | .hbm, ⟨28, _⟩ => ⟨S8192x1024, .f32⟩
  | .hbm, ⟨29, _⟩ => ⟨S8192x1024, .f32⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_call0_cst : Ref sig .tc := ⟨.hbm, 19, rfl⟩
abbrev main_call0_v0 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_call1_cst : Ref sig .tc := ⟨.hbm, 27, rfl⟩
abbrev main_call1_v0 : Ref sig .tc := ⟨.hbm, 28, rfl⟩
abbrev main_v17 : Ref sig .tc := ⟨.hbm, 29, rfl⟩

abbrev nD : Nat := 1
abbrev τ : Topo := Topo.v7x

variable {F : FTy → Type} [FloatOps F]

class Facts₀ : Prop where
  transposes_S4096x1024_S1024x4096_1_0 : S4096x1024.Transposes [1, 0] S1024x4096
  bcast_S4096_S1x4096_1 : S4096.BroadcastsInDim S1x4096 (![1] : Fin 1 → Fin S1x4096.rank)
  bcast_S1x4096_S8192x4096_0_1 : S1x4096.BroadcastsInDim S8192x4096 (![0, 1] : Fin 2 → Fin S8192x4096.rank)
  transposes_S4096x4096_S4096x4096_1_0 : S4096x4096.Transposes [1, 0] S4096x4096
  bcast_S_S8192x4096 : S_.BroadcastsInDim S8192x4096 (![] : Fin 0 → Fin S8192x4096.rank)
  transposes_S1024x4096_S4096x1024_1_0 : S1024x4096.Transposes [1, 0] S4096x1024
  bcast_S1024_S1x1024_1 : S1024.BroadcastsInDim S1x1024 (![1] : Fin 1 → Fin S1x1024.rank)
  bcast_S1x1024_S8192x1024_0_1 : S1x1024.BroadcastsInDim S8192x1024 (![0, 1] : Fin 2 → Fin S8192x1024.rank)
  bcast_S_S8192x1024 : S_.BroadcastsInDim S8192x1024 (![] : Fin 0 → Fin S8192x1024.rank)
  dot_S8192x1024_S1024x4096_S8192x4096_1_0_0_1_n_n_wf : DotDims.WF S8192x1024 S1024x4096 S8192x4096 [1] [0] [0] [1] [] []
  dot_S8192x4096_S4096x4096_S8192x4096_1_0_0_1_n_n_wf : DotDims.WF S8192x4096 S4096x4096 S8192x4096 [1] [0] [0] [1] [] []
  dot_S8192x4096_S4096x1024_S8192x1024_1_0_0_1_n_n_wf : DotDims.WF S8192x4096 S4096x1024 S8192x1024 [1] [0] [0] [1] [] []

variable [Facts₀]

def dot_S8192x1024_S1024x4096_S8192x4096_1_0_0_1_n_n : DotDims S8192x1024 S1024x4096 S8192x4096 where
  lhsContracting := [1]
  rhsContracting := [0]
  lhsNonContracting := [0]
  rhsNonContracting := [1]
  lhsBatch := []
  rhsBatch := []
  wf := dot_S8192x1024_S1024x4096_S8192x4096_1_0_0_1_n_n_wf
def dot_S8192x4096_S4096x4096_S8192x4096_1_0_0_1_n_n : DotDims S8192x4096 S4096x4096 S8192x4096 where
  lhsContracting := [1]
  rhsContracting := [0]
  lhsNonContracting := [0]
  rhsNonContracting := [1]
  lhsBatch := []
  rhsBatch := []
  wf := dot_S8192x4096_S4096x4096_S8192x4096_1_0_0_1_n_n_wf
def dot_S8192x4096_S4096x1024_S8192x1024_1_0_0_1_n_n : DotDims S8192x4096 S4096x1024 S8192x1024 where
  lhsContracting := [1]
  rhsContracting := [0]
  lhsNonContracting := [0]
  rhsNonContracting := [1]
  lhsBatch := []
  rhsBatch := []
  wf := dot_S8192x4096_S4096x1024_S8192x1024_1_0_0_1_n_n_wf

class Facts : Prop extends Facts₀ where

variable [Facts]
-- ==== Proof.Pieces.lean ====
/-
  What one run of the cell's body leaves behind, case by case, as terms of the blocks it loads.

  The accumulator after the first point of a row tile holds the input product with the first recurrent tile added;
  after any later point, what it held with that point's recurrent tile added. At the last point the hidden-state
  block is the activation of that accumulator with both biases, and the output block the activation of its product
  with the output weights plus the output bias.
-/
import proofs.«108160_j50105088475253_1_alg».proof.Proof.Gen.KernelIdeal.Frame
import Idealize.ShloMosaic.Lib.Pipeline.Value
import Idealize.ShloMosaic.Lib.Tactic

set_option maxRecDepth 16384

noncomputable section

open Idealize.ShloMosaic Idealize.ShloMosaic.TcCoe Idealize.SL.Sem

namespace Cert.KernelIdeal.Pieces

open Cert.KernelIdeal Cert.KernelIdeal.Gen

variable {F : FTy → Type} [FloatOps F]

theorem hz2 : (![0, 0] : Fin 2 → Nat) = fun _ => 0 := funext fun a => by fin_cases a <;> rfl
theorem hz1 : (![0] : Fin 1 → Nat) = fun _ => 0 := funext fun a => by fin_cases a; rfl

variable (c : Dev nD) (i : grid0.Coords) (arg2 : Memref sig .tc .vmem S128x1024 .bf16) (harg2 : arg2.IsWhole) (arg3 : Memref sig .tc .vmem S128x256 .bf16) (harg3 : arg3.IsWhole) (arg4 : Memref sig .tc .vmem S4096x1024 .bf16) (harg4 : arg4.IsWhole) (arg5 : Memref sig .tc .vmem S4096 .f32) (harg5 : arg5.IsWhole) (arg6 : Memref sig .tc .vmem S4096x256 .bf16) (harg6 : arg6.IsWhole) (arg7 : Memref sig .tc .vmem S4096 .f32) (harg7 : arg7.IsWhole) (arg8 : Memref sig .tc .vmem S1024x4096 .bf16) (harg8 : arg8.IsWhole) (arg9 : Memref sig .tc .vmem S1024 .f32) (harg9 : arg9.IsWhole) (arg10 : Memref sig .tc .vmem S128x4096 .f32) (harg10 : arg10.IsWhole) (arg11 : Memref sig .tc .vmem S128x1024 .f32) (harg11 : arg11.IsWhole) (arg12 : Memref sig .tc .vmem S128x4096 .f32) (harg12 : arg12.IsWhole)

/-- First point of a row tile: the accumulator is reset to the input product, then the first recurrent tile is added. -/
theorem acc_first (hc0 : cond0_0 i) (hc1 : ¬cond0_1 i) (x0 : Vec F S128x1024 .bf16) (x1 : Vec F S128x256 .bf16) (x2 : Vec F S4096x1024 .bf16) (x3 : Vec F S4096 .f32) (x4 : Vec F S4096x256 .bf16) (x5 : Vec F S4096 .f32) (x6 : Vec F S1024x4096 .bf16) (x7 : Vec F S1024 .f32) :
    sout0_A_0 c i arg2 harg2 arg3 harg3 arg4 harg4 arg5 harg5 arg6 harg6 arg7 harg7 arg8 harg8 arg9 harg9 arg10 harg10 arg11 harg11 arg12 harg12 hc0 hc1 x0 x1 x2 x3 x4 x5 x6 x7 = k0_pay2 x1 x4 (k0_pay1 x0 x2) := by
  unfold sout0_A_0
  rw [View.read_writes_eq_canon _ _ _ (scover0_A_0 c i arg2 harg2 arg3 harg3 arg4 harg4 arg5 harg5 arg6 harg6 arg7 harg7 arg8 harg8 arg9 harg9 arg10 harg10 arg11 harg11 arg12 harg12 hc0 hc1 x0 x1 x2 x3 x4 x5 x6 x7)]
  unfold kernelRun0_A
  dsimp only
  sl_unfold_words
  rw [View.canon_cons_unit_zero (S := S128x4096) hz2]
  simp only [View.readAt_eq_ld, harg2.read_unread, harg3.read_unread, harg4.read_unread, harg5.read_unread, harg6.read_unread, harg7.read_unread, harg8.read_unread, harg9.read_unread, harg12.read_unread, View.readCov_unit_zero (S := S128x4096) _ hz2, View.ld_unit_zero (S := S128x1024) hz2, View.ld_unit_zero (S := S128x256) hz2, View.ld_unit_zero (S := S4096x1024) hz2, View.ld_unit_zero (S := S4096x256) hz2, View.ld_unit_zero (S := S1024x4096) hz2, View.ld_unit_zero (S := S128x4096) hz2, View.ld_unit_zero (S := S4096) hz1, View.ld_unit_zero (S := S1024) hz1]

/-- A middle point: this point's recurrent tile is added to what the accumulator held. -/
theorem acc_next (hc0 : ¬cond0_0 i) (hc1 : ¬cond0_1 i) (x0 : Vec F S128x1024 .bf16) (x1 : Vec F S128x256 .bf16) (x2 : Vec F S4096x1024 .bf16) (x3 : Vec F S4096 .f32) (x4 : Vec F S4096x256 .bf16) (x5 : Vec F S4096 .f32) (x6 : Vec F S1024x4096 .bf16) (x7 : Vec F S1024 .f32) (xs0 : Vec F S128x4096 .f32) :
    sout0_B_0 c i arg2 harg2 arg3 harg3 arg4 harg4 arg5 harg5 arg6 harg6 arg7 harg7 arg8 harg8 arg9 harg9 arg10 harg10 arg11 harg11 arg12 harg12 hc0 hc1 x0 x1 x2 x3 x4 x5 x6 x7 xs0 = k0_pay2 x1 x4 xs0 := by
  unfold sout0_B_0
  rw [View.read_writes_eq_canon _ _ _ (scover0_B_0 c i arg2 harg2 arg3 harg3 arg4 harg4 arg5 harg5 arg6 harg6 arg7 harg7 arg8 harg8 arg9 harg9 arg10 harg10 arg11 harg11 arg12 harg12 hc0 hc1 x0 x1 x2 x3 x4 x5 x6 x7 xs0)]
  unfold kernelRun0_B
  dsimp only
  sl_unfold_words
  rw [View.canon_unit_zero (S := S128x4096) hz2]
  simp only [View.readAt_eq_ld, harg2.read_unread, harg3.read_unread, harg4.read_unread, harg5.read_unread, harg6.read_unread, harg7.read_unread, harg8.read_unread, harg9.read_unread, harg12.read_unread, View.readCov_unit_zero (S := S128x4096) _ hz2, View.ld_unit_zero (S := S128x1024) hz2, View.ld_unit_zero (S := S128x256) hz2, View.ld_unit_zero (S := S4096x1024) hz2, View.ld_unit_zero (S := S4096x256) hz2, View.ld_unit_zero (S := S1024x4096) hz2, View.ld_unit_zero (S := S128x4096) hz2, View.ld_unit_zero (S := S4096) hz1, View.ld_unit_zero (S := S1024) hz1]

/-- The last point of a row tile adds its recurrent tile likewise. -/
theorem acc_last (hc0 : ¬cond0_0 i) (hc1 : cond0_1 i) (x0 : Vec F S128x1024 .bf16) (x1 : Vec F S128x256 .bf16) (x2 : Vec F S4096x1024 .bf16) (x3 : Vec F S4096 .f32) (x4 : Vec F S4096x256 .bf16) (x5 : Vec F S4096 .f32) (x6 : Vec F S1024x4096 .bf16) (x7 : Vec F S1024 .f32) (xs0 : Vec F S128x4096 .f32) :
    sout0_C_0 c i arg2 harg2 arg3 harg3 arg4 harg4 arg5 harg5 arg6 harg6 arg7 harg7 arg8 harg8 arg9 harg9 arg10 harg10 arg11 harg11 arg12 harg12 hc0 hc1 x0 x1 x2 x3 x4 x5 x6 x7 xs0 = k0_pay2 x1 x4 xs0 := by
  unfold sout0_C_0
  rw [View.read_writes_eq_canon _ _ _ (scover0_C_0 c i arg2 harg2 arg3 harg3 arg4 harg4 arg5 harg5 arg6 harg6 arg7 harg7 arg8 harg8 arg9 harg9 arg10 harg10 arg11 harg11 arg12 harg12 hc0 hc1 x0 x1 x2 x3 x4 x5 x6 x7 xs0)]
  unfold kernelRun0_C
  dsimp only
  sl_unfold_words
  rw [View.canon_unit_zero (S := S128x4096) hz2]
  simp only [View.readAt_eq_ld, harg2.read_unread, harg3.read_unread, harg4.read_unread, harg5.read_unread, harg6.read_unread, harg7.read_unread, harg8.read_unread, harg9.read_unread, harg12.read_unread, View.readCov_unit_zero (S := S128x4096) _ hz2, View.ld_unit_zero (S := S128x1024) hz2, View.ld_unit_zero (S := S128x256) hz2, View.ld_unit_zero (S := S4096x1024) hz2, View.ld_unit_zero (S := S4096x256) hz2, View.ld_unit_zero (S := S1024x4096) hz2, View.ld_unit_zero (S := S128x4096) hz2, View.ld_unit_zero (S := S4096) hz1, View.ld_unit_zero (S := S1024) hz1]

/-- At the last point the hidden-state block is the activation of the finished accumulator plus both biases. -/
theorem state_last (hc0 : ¬cond0_0 i) (hc1 : cond0_1 i) (x0 : Vec F S128x1024 .bf16) (x1 : Vec F S128x256 .bf16) (x2 : Vec F S4096x1024 .bf16) (x3 : Vec F S4096 .f32) (x4 : Vec F S4096x256 .bf16) (x5 : Vec F S4096 .f32) (x6 : Vec F S1024x4096 .bf16) (x7 : Vec F S1024 .f32) (xs0 : Vec F S128x4096 .f32) :
    out0_C_8 c i arg2 harg2 arg3 harg3 arg4 harg4 arg5 harg5 arg6 harg6 arg7 harg7 arg8 harg8 arg9 harg9 arg10 harg10 arg11 harg11 arg12 harg12 hc0 hc1 x0 x1 x2 x3 x4 x5 x6 x7 xs0 = k0_pay3 (k0_pay2 x1 x4 xs0) x3 x5 := by
  unfold out0_C_8
  rw [View.read_writes_eq_canon _ _ _ (cover0_C_8 c i arg2 harg2 arg3 harg3 arg4 harg4 arg5 harg5 arg6 harg6 arg7 harg7 arg8 harg8 arg9 harg9 arg10 harg10 arg11 harg11 arg12 harg12 hc0 hc1 x0 x1 x2 x3 x4 x5 x6 x7 xs0)]
  unfold kernelRun0_C
  dsimp only
  sl_unfold_words
  rw [View.canon_unit_zero (S := S128x4096) hz2]
  simp only [View.readAt_eq_ld, harg2.read_unread, harg3.read_unread, harg4.read_unread, harg5.read_unread, harg6.read_unread, harg7.read_unread, harg8.read_unread, harg9.read_unread, harg12.read_unread, View.readCov_unit_zero (S := S128x4096) _ hz2, View.ld_unit_zero (S := S128x1024) hz2, View.ld_unit_zero (S := S128x256) hz2, View.ld_unit_zero (S := S4096x1024) hz2, View.ld_unit_zero (S := S4096x256) hz2, View.ld_unit_zero (S := S1024x4096) hz2, View.ld_unit_zero (S := S128x4096) hz2, View.ld_unit_zero (S := S4096) hz1, View.ld_unit_zero (S := S1024) hz1]

/-- At the last point the output block is the activation of that hidden-state block times the output weights plus the output bias. -/
theorem out_last (hc0 : ¬cond0_0 i) (hc1 : cond0_1 i) (x0 : Vec F S128x1024 .bf16) (x1 : Vec F S128x256 .bf16) (x2 : Vec F S4096x1024 .bf16) (x3 : Vec F S4096 .f32) (x4 : Vec F S4096x256 .bf16) (x5 : Vec F S4096 .f32) (x6 : Vec F S1024x4096 .bf16) (x7 : Vec F S1024 .f32) (xs0 : Vec F S128x4096 .f32) :
    out0_C_9 c i arg2 harg2 arg3 harg3 arg4 harg4 arg5 harg5 arg6 harg6 arg7 harg7 arg8 harg8 arg9 harg9 arg10 harg10 arg11 harg11 arg12 harg12 hc0 hc1 x0 x1 x2 x3 x4 x5 x6 x7 xs0 = k0_pay4 (k0_pay2 x1 x4 xs0) x3 x5 x6 x7 := by
  unfold out0_C_9
  rw [View.read_writes_eq_canon _ _ _ (cover0_C_9 c i arg2 harg2 arg3 harg3 arg4 harg4 arg5 harg5 arg6 harg6 arg7 harg7 arg8 harg8 arg9 harg9 arg10 harg10 arg11 harg11 arg12 harg12 hc0 hc1 x0 x1 x2 x3 x4 x5 x6 x7 xs0)]
  unfold kernelRun0_C
  dsimp only
  sl_unfold_words
  rw [View.canon_unit_zero (S := S128x1024) hz2]
  simp only [View.readAt_eq_ld, harg2.read_unread, harg3.read_unread, harg4.read_unread, harg5.read_unread, harg6.read_unread, harg7.read_unread, harg8.read_unread, harg9.read_unread, harg12.read_unread, View.readCov_unit_zero (S := S128x4096) _ hz2, View.ld_unit_zero (S := S128x1024) hz2, View.ld_unit_zero (S := S128x256) hz2, View.ld_unit_zero (S := S4096x1024) hz2, View.ld_unit_zero (S := S4096x256) hz2, View.ld_unit_zero (S := S1024x4096) hz2, View.ld_unit_zero (S := S128x4096) hz2, View.ld_unit_zero (S := S4096) hz1, View.ld_unit_zero (S := S1024) hz1]

end Cert.KernelIdeal.Pieces

end
-- ==== Proof.LibPlainDot.lean ====
/-
  A plain matrix product read at an index, for any dimension record.

  For dimension numbers that contract the left operand's axis 1 with the right operand's axis 0 and have no batch
  axes (`M×K` by `K×N`, the record's six lists given as equalities so that any printed record of this kind fits by
  `rfl`), a `tpu.matmul` into the zero accumulator is, at the ideal values and at `(p, q)`, the sum over the `K`
  contracted positions `d` of `l (p, d) · r (d, q)`. The contraction index set has one axis of extent `K`; the
  operand indices at a contraction position are read off the record's lists one axis at a time.
-/
import Idealize.ShloMosaic.Lib.ValueIdx
import Idealize.ShloMosaic.PureOps.Ideal.Laws

noncomputable section

open scoped BigOperators
open Idealize.ShloMosaic Idealize.ShloMosaic.ValueIdx

namespace Cert.RnnCell

section Plain

variable {a k b : ℕ} (D : DotDims ⟨2, ![a, k]⟩ ⟨2, ![k, b]⟩ ⟨2, ![a, b]⟩)
  (hlc : D.lhsContracting = [1]) (hrc : D.rhsContracting = [0])
  (hln : D.lhsNonContracting = [0]) (hrn : D.rhsNonContracting = [1])
  (hlb : D.lhsBatch = []) (hrb : D.rhsBatch = [])

include hln hlb in
theorem plain_lhs_row (i : (⟨2, ![a, b]⟩ : Shape).Idx) (q : D.contr.Idx) : (D.lhsIdx i q 0).val = (i 0).val := by
  unfold DotDims.lhsIdx
  rw [dif_neg (by rw [hlb]; exact List.not_mem_nil), dif_pos (by rw [hln]; exact List.mem_singleton.mpr rfl)]
  simp only [Fin.val_cast]
  have key : ∀ (p p' : Nat) (hp : p < 2) (hp' : p' < 2), p = p' → (i ⟨p, hp⟩).val = (i ⟨p', hp'⟩).val :=
    fun p p' hp hp' h => by subst h; rfl
  exact key _ _ _ _ (by simp [hlb, hln])

include hrn hrb hln hlb in
theorem plain_rhs_col (i : (⟨2, ![a, b]⟩ : Shape).Idx) (q : D.contr.Idx) : (D.rhsIdx i q 1).val = (i 1).val := by
  unfold DotDims.rhsIdx
  rw [dif_neg (by rw [hrb]; exact List.not_mem_nil), dif_pos (by rw [hrn]; exact List.mem_singleton.mpr rfl)]
  simp only [Fin.val_cast]
  have key : ∀ (p p' : Nat) (hp : p < 2) (hp' : p' < 2), p = p' → (i ⟨p, hp⟩).val = (i ⟨p', hp'⟩).val :=
    fun p p' hp hp' h => by subst h; rfl
  exact key _ _ _ _ (by simp [hlb, hln, hrn])

include hlc in
theorem plain_contr_rank : D.contr.rank = 1 := by rw [D.rank_contr, hlc]; rfl

include hlc in
theorem plain_contr_size : D.contr.size ⟨0, by rw [plain_contr_rank D hlc]; exact Nat.one_pos⟩ = k := by
  rw [D.size_contr 0 (by rw [hlc]; exact Nat.one_pos)]
  simp [hlc]

include hlc hrc hln hrn hlb hrb in
/-- A plain `M×K` by `K×N` product into a zero accumulator, read at `(p, q)`: the sum over the contracted axis. -/
theorem matmul_plain_apply {φ₁ φ₂ : FTy} (l : FVec Ideal ⟨2, ![a, k]⟩ φ₁) (r : FVec Ideal ⟨2, ![k, b]⟩ φ₂) (p : Fin a) (q : Fin b) :
    FloatOps.matmul D none l r (constant ⟨2, ![a, b]⟩ .f32 0x00000000#32) (ix2 p q) = ∑ d : Fin k, l (ix2 p d) * r (ix2 d q) := by
  rw [Ideal.matmul_constant_zero_apply,
    ← Equiv.sum_comp (contrEquiv1 D k (plain_contr_rank D hlc) (plain_contr_size D hlc)).symm]
  refine Finset.sum_congr rfl fun d _ => ?_
  have hk := contrEquiv1_symm_val D k (plain_contr_rank D hlc) (plain_contr_size D hlc) d
  have el : D.lhsIdx (ix2 p q) ((contrEquiv1 D k (plain_contr_rank D hlc) (plain_contr_size D hlc)).symm d) = ix2 p d :=
    funext fun x => Fin.ext (by
      match x with
      | ⟨0, _⟩ => exact plain_lhs_row D hln hlb _ _
      | ⟨1, _⟩ => exact (D.lhsIdx_val_of_single hlc _ _).trans hk)
  have er : D.rhsIdx (ix2 p q) ((contrEquiv1 D k (plain_contr_rank D hlc) (plain_contr_size D hlc)).symm d) = ix2 d q :=
    funext fun x => Fin.ext (by
      match x with
      | ⟨0, _⟩ => exact (D.rhsIdx_val_of_single hrc _ _).trans hk
      | ⟨1, _⟩ => exact plain_rhs_col D hln hrn hlb hrb _ _)
  rw [el, er]

end Plain

end Cert.RnnCell

end
-- ==== Proof.Payloads.lean ====
/-
  The cell body's four stored values read at one index, on the extended reals.

  * the input product: (p, q) ↦ Σ_d x(p,d)·w_in(q,d);
  * a recurrent tile added to the accumulator: (p, q) ↦ acc(p,q) + Σ_j s(p,j)·w_rec(q,j);
  * the hidden-state block: (p, q) ↦ max ((acc(p,q) + b_in(q)) + b_rec(q)) 0;
  * the output block: (p, o) ↦ max ((Σ_h state(p,h)·w_out(o,h)) + b_out(o)) 0.

  Each weight block is used transposed, so its row index is the result's column; changes of float format are the identity.
-/
import proofs.«108160_j50105088475253_1_alg».proof.Proof.Gen.KernelIdeal.Skeleton
import proofs.«108160_j50105088475253_1_alg».proof.Proof.LibPlainDot
import Idealize.ShloMosaic.Lib.Pipeline.Value
import Idealize.ShloMosaic.Lib.ValueLayout

noncomputable section

open scoped BigOperators
open Idealize.ShloMosaic Idealize.ShloMosaic.ValueIdx

namespace Cert.KernelIdeal.Payloads

open Cert.KernelIdeal Cert.KernelIdeal.Gen Cert.RnnCell

/-- The input product at `(p, q)`. -/
theorem inputProduct_apply (x : FVec Ideal S128x1024 .bf16) (w : FVec Ideal S4096x1024 .bf16) (p : Fin 128) (q : Fin 4096) :
    k0_pay1 (F := Ideal) x w (ix2 p q) = ∑ d : Fin 1024, x (ix2 p d) * w (ix2 q d) := by
  unfold k0_pay1
  simp only [shapeCast_self]
  refine (matmul_plain_apply dot_S128x1024_S1024x4096_S128x4096_1_0_0_1_n_n rfl rfl rfl rfl rfl rfl _ _ p q).trans ?_
  exact Finset.sum_congr rfl fun d _ => congrArg (x (ix2 p d) * ·) (transpose_ix2_apply w _ d q)

/-- The accumulator with one recurrent tile added, at `(p, q)`. -/
theorem addTile_apply (s : FVec Ideal S128x256 .bf16) (w : FVec Ideal S4096x256 .bf16) (acc : FVec Ideal S128x4096 .f32)
    (p : Fin 128) (q : Fin 4096) :
    k0_pay2 (F := Ideal) s w acc (ix2 p q) = acc (ix2 p q) + ∑ j : Fin 256, s (ix2 p j) * w (ix2 q j) := by
  unfold k0_pay2
  simp only [shapeCast_self]
  refine congrArg (acc (ix2 p q) + ·) ?_
  refine (matmul_plain_apply dot_S128x256_S256x4096_S128x4096_1_0_0_1_n_n rfl rfl rfl rfl rfl rfl _ _ p q).trans ?_
  exact Finset.sum_congr rfl fun j _ => congrArg (s (ix2 p j) * ·) (transpose_ix2_apply w _ j q)

/-- A bias vector laid along the rows of a block reads its entry at the column. -/
theorem biasRow_apply {a b : ℕ} (v : FVec Ideal ⟨1, ![b]⟩ .f32) (h1 : (⟨1, ![b]⟩ : Shape).ShapeCasts ⟨2, ![1, b]⟩)
    (h2 : (⟨2, ![1, b]⟩ : Shape).Broadcasts ⟨2, ![a, b]⟩) (p : Fin a) (q : Fin b) :
    broadcastTo ⟨2, ![a, b]⟩ (shapeCast ⟨2, ![1, b]⟩ v h1) h2 (ix2 p q) = v (ix1 q) :=
  (broadcastTo_1b_ab_apply _ h2 p q).trans (shapeCast_a_1a_apply v h1 0 q)

/-- The hidden-state block at `(p, q)`. -/
theorem state_apply (acc : FVec Ideal S128x4096 .f32) (b1 b2 : FVec Ideal S4096 .f32) (p : Fin 128) (q : Fin 4096) :
    k0_pay3 (F := Ideal) acc b1 b2 (ix2 p q) = max ((acc (ix2 p q) + b1 (ix1 q)) + b2 (ix1 q)) 0 := by
  unfold k0_pay3
  show max ((acc (ix2 p q) + broadcastTo S128x4096 (shapeCast S1x4096 b1 _) _ (ix2 p q))
      + broadcastTo S128x4096 (shapeCast S1x4096 b2 _) _ (ix2 p q)) (Ideal.ofBits .f32 0x00000000#32) = _
  rw [biasRow_apply, biasRow_apply, Ideal.ofBits_zero_f32]

/-- The output block at `(p, o)`, over the hidden-state block. -/
theorem out_apply (acc : FVec Ideal S128x4096 .f32) (b1 b2 : FVec Ideal S4096 .f32) (w : FVec Ideal S1024x4096 .bf16)
    (b : FVec Ideal S1024 .f32) (p : Fin 128) (o : Fin 1024) :
    k0_pay4 (F := Ideal) acc b1 b2 w b (ix2 p o)
      = max ((∑ h : Fin 4096, k0_pay3 (F := Ideal) acc b1 b2 (ix2 p h) * w (ix2 o h)) + b (ix1 o)) 0 := by
  unfold k0_pay4
  simp only [shapeCast_self]
  show max (FloatOps.matmul dot_S128x4096_S4096x1024_S128x1024_1_0_0_1_n_n none _ _ _ (ix2 p o)
      + broadcastTo S128x1024 (shapeCast S1x1024 b _) _ (ix2 p o)) (Ideal.ofBits .f32 0x00000000#32) = _
  rw [biasRow_apply, Ideal.ofBits_zero_f32]
  refine congrArg (fun t => max (t + b (ix1 o)) 0) ?_
  refine (matmul_plain_apply dot_S128x4096_S4096x1024_S128x1024_1_0_0_1_n_n rfl rfl rfl rfl rfl rfl _ _ p o).trans ?_
  exact Finset.sum_congr rfl fun h _ => congrArg (k0_pay3 (F := Ideal) acc b1 b2 (ix2 p h) * ·) (transpose_ix2_apply w _ h o)

end Cert.KernelIdeal.Payloads

end
-- ==== Proof.Blocks.lean ====
/-
  The input blocks of a grid point, read at an index of the argument arrays.

  Point `t` of the 64 × 16 grid is row tile `t / 16`, recurrent tile `t % 16`. The five arrays the host converts to a
  narrower float format before the call are, on the extended reals, the arguments themselves (a format change is the
  identity). So at point `t` the input block is rows `128·(t/16) …` of `X`; the state block those rows and columns
  `256·(t%16) …` of `state`; the recurrent-weight block those columns of `W_rec`; and the other five blocks are whole
  arguments.
-/
import proofs.«108160_j50105088475253_1_alg».proof.Proof.Gen.KernelIdeal.Frame
import Idealize.ShloMosaic.Lib.Pipeline.Value
import Idealize.ShloMosaic.Lib.StableHlo.Run
import Idealize.ShloMosaic.Lib.ValueIdx
import Idealize.ShloMosaic.Lib.Tactic

noncomputable section

open Idealize.ShloMosaic Idealize.ShloMosaic.TcCoe Idealize.SL.Sem Idealize.ShloMosaic.ValueIdx

namespace Cert.KernelIdeal.Blocks

open Cert.KernelIdeal Cert.KernelIdeal.Gen

variable (m : (ℓ : Loc nD τ sig) → Buf (Elt Ideal) ℓ)

/-! ## The converted arrays are the arguments -/

theorem conv_x (c : Dev nD) :
    (V m c main_v0 : S8192x1024.Idx → EReal) = (m ((c : Thread nD τ).loc main_arg0) : S8192x1024.Idx → EReal) := by
  dsimp only [Gen.V, Gen.hostOps0]; after_results; rfl

theorem conv_state (c : Dev nD) :
    (V m c main_v1 : S8192x4096.Idx → EReal) = (m ((c : Thread nD τ).loc main_arg1) : S8192x4096.Idx → EReal) := by
  dsimp only [Gen.V, Gen.hostOps0]; after_results; rfl

theorem conv_win (c : Dev nD) :
    (V m c main_v2 : S4096x1024.Idx → EReal) = (m ((c : Thread nD τ).loc main_arg2) : S4096x1024.Idx → EReal) := by
  dsimp only [Gen.V, Gen.hostOps0]; after_results; rfl

theorem conv_wrec (c : Dev nD) :
    (V m c main_v3 : S4096x4096.Idx → EReal) = (m ((c : Thread nD τ).loc main_arg4) : S4096x4096.Idx → EReal) := by
  dsimp only [Gen.V, Gen.hostOps0]; after_results; rfl

theorem conv_wout (c : Dev nD) :
    (V m c main_v4 : S1024x4096.Idx → EReal) = (m ((c : Thread nD τ).loc main_arg6) : S1024x4096.Idx → EReal) := by
  dsimp only [Gen.V, Gen.hostOps0]; after_results; rfl

/-! ## The windows' block indices over the grid -/

theorem idx_x : ∀ t : Fin cfg0.N, win0_0.index t 0 = t.val / 16 ∧ win0_0.index t 1 = 0 :=
  (by decide +kernel : ∀ t : Fin grid0.N, win0_0.index t 0 = t.val / 16 ∧ win0_0.index t 1 = 0)
theorem idx_state : ∀ t : Fin cfg0.N, win0_1.index t 0 = t.val / 16 ∧ win0_1.index t 1 = t.val % 16 :=
  (by decide +kernel : ∀ t : Fin grid0.N, win0_1.index t 0 = t.val / 16 ∧ win0_1.index t 1 = t.val % 16)
theorem idx_win : ∀ t : Fin cfg0.N, win0_2.index t 0 = 0 ∧ win0_2.index t 1 = 0 :=
  (by decide +kernel : ∀ t : Fin grid0.N, win0_2.index t 0 = 0 ∧ win0_2.index t 1 = 0)
theorem idx_bin : ∀ t : Fin cfg0.N, win0_3.index t 0 = 0 :=
  (by decide +kernel : ∀ t : Fin grid0.N, win0_3.index t 0 = 0)
theorem idx_wrec : ∀ t : Fin cfg0.N, win0_4.index t 0 = 0 ∧ win0_4.index t 1 = t.val % 16 :=
  (by decide +kernel : ∀ t : Fin grid0.N, win0_4.index t 0 = 0 ∧ win0_4.index t 1 = t.val % 16)
theorem idx_brec : ∀ t : Fin cfg0.N, win0_5.index t 0 = 0 :=
  (by decide +kernel : ∀ t : Fin grid0.N, win0_5.index t 0 = 0)
theorem idx_wout : ∀ t : Fin cfg0.N, win0_6.index t 0 = 0 ∧ win0_6.index t 1 = 0 :=
  (by decide +kernel : ∀ t : Fin grid0.N, win0_6.index t 0 = 0 ∧ win0_6.index t 1 = 0)
theorem idx_bout : ∀ t : Fin cfg0.N, win0_7.index t 0 = 0 :=
  (by decide +kernel : ∀ t : Fin grid0.N, win0_7.index t 0 = 0)

/-! ## Each input block at an index -/

/-- The input block at point `t`: rows `128·(t/16) + ·` of `X`. -/
theorem xBlock_apply (c : Dev nD) (t : Fin cfg0.N) (x : S128x1024.Idx) (k : S8192x1024.Idx)
    (hk0 : (k 0).val = 128 * (t.val / 16) + (x 0).val) (hk1 : (k 1).val = (x 1).val) :
    (iblk m c 0 t : FVec Ideal S128x1024 .bf16) x = (m ((c : Thread nD τ).loc main_arg0) : FVec Ideal S8192x1024 .f32) k := by
  unfold iblk
  rw [View.read_apply]
  show (V m c main_v0 : S8192x1024.Idx → EReal) _ = _
  rw [conv_x]
  congr 1
  funext a
  apply Fin.ext
  match a with
  | ⟨0, _⟩ => show win0_0.index t 0 * 128 + 1 * (x 0).val = (k 0).val; rw [(idx_x t).1, hk0]; omega
  | ⟨1, _⟩ => show win0_0.index t 1 * 1024 + 1 * (x 1).val = (k 1).val; rw [(idx_x t).2, hk1]; omega

/-- The state block at point `t`: rows `128·(t/16) + ·`, columns `256·(t%16) + ·` of `state`. -/
theorem stateBlock_apply (c : Dev nD) (t : Fin cfg0.N) (x : S128x256.Idx) (k : S8192x4096.Idx)
    (hk0 : (k 0).val = 128 * (t.val / 16) + (x 0).val) (hk1 : (k 1).val = 256 * (t.val % 16) + (x 1).val) :
    (iblk m c 1 t : FVec Ideal S128x256 .bf16) x = (m ((c : Thread nD τ).loc main_arg1) : FVec Ideal S8192x4096 .f32) k := by
  unfold iblk
  rw [View.read_apply]
  show (V m c main_v1 : S8192x4096.Idx → EReal) _ = _
  rw [conv_state]
  congr 1
  funext a
  apply Fin.ext
  match a with
  | ⟨0, _⟩ => show win0_1.index t 0 * 128 + 1 * (x 0).val = (k 0).val; rw [(idx_state t).1, hk0]; omega
  | ⟨1, _⟩ => show win0_1.index t 1 * 256 + 1 * (x 1).val = (k 1).val; rw [(idx_state t).2, hk1]; omega

/-- The recurrent-weight block at point `t`: columns `256·(t%16) + ·` of `W_rec`. -/
theorem wrecBlock_apply (c : Dev nD) (t : Fin cfg0.N) (x : S4096x256.Idx) (k : S4096x4096.Idx)
    (hk0 : (k 0).val = (x 0).val) (hk1 : (k 1).val = 256 * (t.val % 16) + (x 1).val) :
    (iblk m c 4 t : FVec Ideal S4096x256 .bf16) x = (m ((c : Thread nD τ).loc main_arg4) : FVec Ideal S4096x4096 .f32) k := by
  unfold iblk
  rw [View.read_apply]
  show (V m c main_v3 : S4096x4096.Idx → EReal) _ = _
  rw [conv_wrec]
  congr 1
  funext a
  apply Fin.ext
  match a with
  | ⟨0, _⟩ => show win0_4.index t 0 * 4096 + 1 * (x 0).val = (k 0).val; rw [(idx_wrec t).1, hk0]; omega
  | ⟨1, _⟩ => show win0_4.index t 1 * 256 + 1 * (x 1).val = (k 1).val; rw [(idx_wrec t).2, hk1]; omega

/-- The input-weight block is all of `W_in`. -/
theorem winBlock_eq (c : Dev nD) (t : Fin cfg0.N) :
    (iblk m c 2 t : FVec Ideal S4096x1024 .bf16) = (m ((c : Thread nD τ).loc main_arg2) : FVec Ideal S4096x1024 .f32) := by
  funext x
  unfold iblk
  rw [View.read_apply]
  show (V m c main_v2 : S4096x1024.Idx → EReal) _ = _
  rw [conv_win]
  congr 1
  funext a
  apply Fin.ext
  match a with
  | ⟨0, _⟩ => show win0_2.index t 0 * 4096 + 1 * (x 0).val = (x 0).val; rw [(idx_win t).1]; omega
  | ⟨1, _⟩ => show win0_2.index t 1 * 1024 + 1 * (x 1).val = (x 1).val; rw [(idx_win t).2]; omega

/-- The output-weight block is all of `W_out`. -/
theorem woutBlock_eq (c : Dev nD) (t : Fin cfg0.N) :
    (iblk m c 6 t : FVec Ideal S1024x4096 .bf16) = (m ((c : Thread nD τ).loc main_arg6) : FVec Ideal S1024x4096 .f32) := by
  funext x
  unfold iblk
  rw [View.read_apply]
  show (V m c main_v4 : S1024x4096.Idx → EReal) _ = _
  rw [conv_wout]
  congr 1
  funext a
  apply Fin.ext
  match a with
  | ⟨0, _⟩ => show win0_6.index t 0 * 1024 + 1 * (x 0).val = (x 0).val; rw [(idx_wout t).1]; omega
  | ⟨1, _⟩ => show win0_6.index t 1 * 4096 + 1 * (x 1).val = (x 1).val; rw [(idx_wout t).2]; omega

/-- The input-bias block is all of `b_in`. -/
theorem binBlock_eq (c : Dev nD) (t : Fin cfg0.N) :
    (iblk m c 3 t : FVec Ideal S4096 .f32) = (m ((c : Thread nD τ).loc main_arg3) : FVec Ideal S4096 .f32) := by
  funext x
  unfold iblk
  rw [View.read_apply]
  show (V m c main_arg3 : S4096.Idx → EReal) _ = _
  rw [V_main_arg3]
  congr 1
  funext a
  apply Fin.ext
  match a with
  | ⟨0, _⟩ => show win0_3.index t 0 * 4096 + 1 * (x 0).val = (x 0).val; rw [idx_bin t]; omega

/-- The recurrent-bias block is all of `b_rec`. -/
theorem brecBlock_eq (c : Dev nD) (t : Fin cfg0.N) :
    (iblk m c 5 t : FVec Ideal S4096 .f32) = (m ((c : Thread nD τ).loc main_arg5) : FVec Ideal S4096 .f32) := by
  funext x
  unfold iblk
  rw [View.read_apply]
  show (V m c main_arg5 : S4096.Idx → EReal) _ = _
  rw [V_main_arg5]
  congr 1
  funext a
  apply Fin.ext
  match a with
  | ⟨0, _⟩ => show win0_5.index t 0 * 4096 + 1 * (x 0).val = (x 0).val; rw [idx_brec t]; omega

/-- The output-bias block is all of `b_out`. -/
theorem boutBlock_eq (c : Dev nD) (t : Fin cfg0.N) :
    (iblk m c 7 t : FVec Ideal S1024 .f32) = (m ((c : Thread nD τ).loc main_arg7) : FVec Ideal S1024 .f32) := by
  funext x
  unfold iblk
  rw [View.read_apply]
  show (V m c main_arg7 : S1024.Idx → EReal) _ = _
  rw [V_main_arg7]
  congr 1
  funext a
  apply Fin.ext
  match a with
  | ⟨0, _⟩ => show win0_7.index t 0 * 1024 + 1 * (x 0).val = (x 0).val; rw [idx_bout t]; omega

end Cert.KernelIdeal.Blocks

end
-- ==== Proof.Spec.lean ====
/-
  The recurrent cell's two results as functions of the eight argument arrays, index by index, on the extended reals.

    newState (r, h) = max (((Σ_d X(r,d)·W_in(h,d) + b_in(h)) + Σ_e S(r,e)·W_rec(h,e)) + b_rec(h)) 0
    output   (r, o) = max ((Σ_h newState(r,h)·W_out(o,h)) + b_out(o)) 0

  and the two facts about sums that join a K-blocked accumulation to these: a sum over `a·b` terms is the sum, over the
  `a` tiles, of each tile's `b` terms; and adding the tiles' total before the first bias or after it is the same
  extended real (addition there is commutative and associative, infinities included).
-/
import Idealize.ShloMosaic.Lib.ValueIdx
import Mathlib.Algebra.BigOperators.Fin
import Mathlib.Logic.Equiv.Fin.Basic

noncomputable section

open scoped BigOperators
open Idealize.ShloMosaic Idealize.ShloMosaic.ValueIdx

namespace Cert.RnnCell

/-- A sum over `n = a·b` terms, tile by tile: tile `s` holds the terms `b·s … b·s + b − 1`. -/
theorem sum_tiles {M : Type*} [AddCommMonoid M] {a b n : ℕ} (h : a * b = n) (f : Fin n → M) :
    ∑ e, f e = ∑ s : Fin a, ∑ j : Fin b, f ⟨b * s.val + j.val, by
      have hs := s.isLt; have hj := j.isLt; subst h
      calc b * s.val + j.val < b * s.val + b := by omega
        _ = b * (s.val + 1) := by ring
        _ ≤ b * a := Nat.mul_le_mul_left _ hs
        _ = a * b := Nat.mul_comm _ _⟩ := by
  subst h
  rw [← Equiv.sum_comp finProdFinEquiv f, Fintype.sum_prod_type]
  refine Finset.sum_congr rfl fun s _ => Finset.sum_congr rfl fun j _ => congrArg f (Fin.ext ?_)
  simp [finProdFinEquiv, Nat.add_comm]

/-- The pre-activation with the recurrent term added first and both biases after it is the one with the input bias
    added before the recurrent term. -/
theorem preact_comm (xw sw b₁ b₂ : EReal) : ((xw + sw) + b₁) + b₂ = ((xw + b₁) + sw) + b₂ := by
  rw [add_right_comm xw sw b₁]

/-- The new hidden state at row `r`, unit `h`. -/
def newState (X : FVec Ideal ⟨2, ![8192, 1024]⟩ .f32) (S : FVec Ideal ⟨2, ![8192, 4096]⟩ .f32)
    (Win : FVec Ideal ⟨2, ![4096, 1024]⟩ .f32) (bin : FVec Ideal ⟨1, ![4096]⟩ .f32)
    (Wrec : FVec Ideal ⟨2, ![4096, 4096]⟩ .f32) (brec : FVec Ideal ⟨1, ![4096]⟩ .f32) :
    FVec Ideal ⟨2, ![8192, 4096]⟩ .f32 := fun i =>
  max ((((∑ d : Fin 1024, X (ix2 (i 0) d) * Win (ix2 (i 1) d)) + bin (ix1 (i 1)))
        + ∑ e : Fin 4096, S (ix2 (i 0) e) * Wrec (ix2 (i 1) e)) + brec (ix1 (i 1))) 0

/-- The cell's output at row `r`, unit `o`, from a hidden state. -/
def output (NS : FVec Ideal ⟨2, ![8192, 4096]⟩ .f32) (Wout : FVec Ideal ⟨2, ![1024, 4096]⟩ .f32)
    (bout : FVec Ideal ⟨1, ![1024]⟩ .f32) : FVec Ideal ⟨2, ![8192, 1024]⟩ .f32 := fun i =>
  max ((∑ h : Fin 4096, NS (ix2 (i 0) h) * Wout (ix2 (i 1) h)) + bout (ix1 (i 1))) 0

end Cert.RnnCell

end
-- ==== Proof.Accumulator.lean ====
/-
  The accumulator across a row tile, and what it holds when the tile's last point is reached.

  Within row tile `t / 16` the scratch is reset at the first point to the input product plus the first recurrent tile,
  and every later point adds its own recurrent tile. So after point `t` it holds, at `(p, q)`, the input product
  `Σ_d X(row,d)·W_in(q,d)` plus the recurrent tiles `0 … t % 16`; and after the last point of the tile, since the 16
  tiles of 256 columns are the 4096 columns, the whole recurrent product `Σ_e S(row,e)·W_rec(q,e)` — where
  `row = 128·(t/16) + p`.
-/
import proofs.«108160_j50105088475253_1_alg».proof.Proof.Gen.KernelIdeal.Value
import proofs.«108160_j50105088475253_1_alg».proof.Proof.Pieces
import proofs.«108160_j50105088475253_1_alg».proof.Proof.Payloads
import proofs.«108160_j50105088475253_1_alg».proof.Proof.Blocks
import proofs.«108160_j50105088475253_1_alg».proof.Proof.Spec
import Idealize.ShloMosaic.Lib.Pipeline.Value

set_option maxRecDepth 16384

noncomputable section

open scoped BigOperators
open Idealize.ShloMosaic Idealize.ShloMosaic.TcCoe Idealize.SL.Sem Idealize.ShloMosaic.ValueIdx

namespace Cert.KernelIdeal.Acc

open Cert.KernelIdeal Cert.KernelIdeal.Gen Cert.KernelIdeal.Value Cert.RnnCell

variable (m : (ℓ : Loc nD τ sig) → Buf (Elt Ideal) ℓ)

/-! ## The arguments and a point's blocks, under their literal types -/

abbrev argX (c : Dev nD) : FVec Ideal S8192x1024 .f32 := m ((c : Thread nD τ).loc main_arg0)
abbrev argS (c : Dev nD) : FVec Ideal S8192x4096 .f32 := m ((c : Thread nD τ).loc main_arg1)
abbrev argWin (c : Dev nD) : FVec Ideal S4096x1024 .f32 := m ((c : Thread nD τ).loc main_arg2)
abbrev argBin (c : Dev nD) : FVec Ideal S4096 .f32 := m ((c : Thread nD τ).loc main_arg3)
abbrev argWrec (c : Dev nD) : FVec Ideal S4096x4096 .f32 := m ((c : Thread nD τ).loc main_arg4)
abbrev argBrec (c : Dev nD) : FVec Ideal S4096 .f32 := m ((c : Thread nD τ).loc main_arg5)
abbrev argWout (c : Dev nD) : FVec Ideal S1024x4096 .f32 := m ((c : Thread nD τ).loc main_arg6)
abbrev argBout (c : Dev nD) : FVec Ideal S1024 .f32 := m ((c : Thread nD τ).loc main_arg7)

abbrev xblk (c : Dev nD) (t : Fin cfg0.N) : FVec Ideal S128x1024 .bf16 := iblk m c 0 t
abbrev sblk (c : Dev nD) (t : Fin cfg0.N) : FVec Ideal S128x256 .bf16 := iblk m c 1 t
abbrev winblk (c : Dev nD) (t : Fin cfg0.N) : FVec Ideal S4096x1024 .bf16 := iblk m c 2 t
abbrev wrecblk (c : Dev nD) (t : Fin cfg0.N) : FVec Ideal S4096x256 .bf16 := iblk m c 4 t

theorem N_eq : cfg0.N = 1024 := N_0

/-- The array row that block row `p` of point `t` is. -/
def row (t : Fin cfg0.N) (p : Fin 128) : Fin 8192 :=
  ⟨128 * (t.val / 16) + p.val, by have := lt_of_lt_of_eq t.isLt N_eq; have := p.isLt; omega⟩

/-- The array column that column `j` of recurrent tile `s` is. -/
def col (s : Fin 16) (j : Fin 256) : Fin 4096 :=
  ⟨256 * s.val + j.val, by have := s.isLt; have := j.isLt; omega⟩

/-! ## What a point adds -/

/-- Point `n`'s recurrent tile at block index `i` (zero past the grid, where it is never used). -/
def tile (c : Dev nD) (n : ℕ) (i : S128x4096.Idx) : EReal :=
  if hn : n < cfg0.N then ∑ j : Fin 256, sblk m c ⟨n, hn⟩ (ix2 (i 0) j) * wrecblk m c ⟨n, hn⟩ (ix2 (i 1) j) else 0

/-- Point `n`'s input product at block index `i`. -/
def inprod (c : Dev nD) (n : ℕ) (i : S128x4096.Idx) : EReal :=
  if hn : n < cfg0.N then ∑ d : Fin 1024, xblk m c ⟨n, hn⟩ (ix2 (i 0) d) * winblk m c ⟨n, hn⟩ (ix2 (i 1) d) else 0

/-- At the first point of a row tile the scratch is left at the input product plus that point's recurrent tile. -/
theorem step_first (c : Dev nD) (n : ℕ) (hb : n < cfg0.N) (h0 : n % 16 = 0) (acc : Vec Ideal S128x4096 .f32)
    (i : S128x4096.Idx) : scAt0_0 m c n hb acc i = inprod m c n i + tile m c n i := by
  have h1 : ¬n % 16 = 15 := by omega
  obtain ⟨p, q, rfl⟩ : ∃ (p : Fin 128) (q : Fin 4096), i = ix2 p q := ⟨i 0, i 1, eq_ix2 i⟩
  unfold scAt0_0
  rw [dif_pos h0, dif_neg h1]
  refine (congrFun (Pieces.acc_first c (grid0.coords (⟨n, hb⟩ : Fin cfg0.N)) (ms0_0 (⟨n, hb⟩ : Fin cfg0.N)) (hs0_0 (⟨n, hb⟩ : Fin cfg0.N)) (ms0_1 (⟨n, hb⟩ : Fin cfg0.N)) (hs0_1 (⟨n, hb⟩ : Fin cfg0.N)) (ms0_2 (⟨n, hb⟩ : Fin cfg0.N)) (hs0_2 (⟨n, hb⟩ : Fin cfg0.N)) (ms0_3 (⟨n, hb⟩ : Fin cfg0.N)) (hs0_3 (⟨n, hb⟩ : Fin cfg0.N)) (ms0_4 (⟨n, hb⟩ : Fin cfg0.N)) (hs0_4 (⟨n, hb⟩ : Fin cfg0.N)) (ms0_5 (⟨n, hb⟩ : Fin cfg0.N)) (hs0_5 (⟨n, hb⟩ : Fin cfg0.N)) (ms0_6 (⟨n, hb⟩ : Fin cfg0.N)) (hs0_6 (⟨n, hb⟩ : Fin cfg0.N)) (ms0_7 (⟨n, hb⟩ : Fin cfg0.N)) (hs0_7 (⟨n, hb⟩ : Fin cfg0.N)) (ms0_8 (⟨n, hb⟩ : Fin cfg0.N)) (hs0_8 (⟨n, hb⟩ : Fin cfg0.N)) (ms0_9 (⟨n, hb⟩ : Fin cfg0.N)) (hs0_9 (⟨n, hb⟩ : Fin cfg0.N)) scM0_0 (Memref.isWhole_whole _) ((hcond0_0 (⟨n, hb⟩ : Fin cfg0.N)).mpr h0) (fun h => h1 ((hcond0_1 (⟨n, hb⟩ : Fin cfg0.N)).mp h)) (iblk m c 0 (⟨n, hb⟩ : Fin cfg0.N)) (iblk m c 1 (⟨n, hb⟩ : Fin cfg0.N)) (iblk m c 2 (⟨n, hb⟩ : Fin cfg0.N)) (iblk m c 3 (⟨n, hb⟩ : Fin cfg0.N)) (iblk m c 4 (⟨n, hb⟩ : Fin cfg0.N)) (iblk m c 5 (⟨n, hb⟩ : Fin cfg0.N)) (iblk m c 6 (⟨n, hb⟩ : Fin cfg0.N)) (iblk m c 7 (⟨n, hb⟩ : Fin cfg0.N))) (ix2 p q)).trans ?_
  refine (Payloads.addTile_apply (sblk m c (⟨n, hb⟩ : Fin cfg0.N)) (wrecblk m c (⟨n, hb⟩ : Fin cfg0.N)) _ p q).trans ?_
  refine congrArg₂ (· + ·) ?_ ?_
  · refine (Payloads.inputProduct_apply (xblk m c (⟨n, hb⟩ : Fin cfg0.N)) (winblk m c (⟨n, hb⟩ : Fin cfg0.N)) p q).trans ?_
    unfold inprod; rw [dif_pos hb]
  · unfold tile; rw [dif_pos hb]

/-- At every other point the scratch gains that point's recurrent tile. -/
theorem step_next (c : Dev nD) (n : ℕ) (hb : n < cfg0.N) (h0 : ¬n % 16 = 0) (acc : Vec Ideal S128x4096 .f32)
    (i : S128x4096.Idx) : scAt0_0 m c n hb acc i = acc i + tile m c n i := by
  obtain ⟨p, q, rfl⟩ : ∃ (p : Fin 128) (q : Fin 4096), i = ix2 p q := ⟨i 0, i 1, eq_ix2 i⟩
  unfold scAt0_0
  rw [dif_neg h0]
  by_cases h1 : n % 16 = 15
  · rw [dif_pos h1]
    refine (congrFun (Pieces.acc_last c (grid0.coords (⟨n, hb⟩ : Fin cfg0.N)) (ms0_0 (⟨n, hb⟩ : Fin cfg0.N)) (hs0_0 (⟨n, hb⟩ : Fin cfg0.N)) (ms0_1 (⟨n, hb⟩ : Fin cfg0.N)) (hs0_1 (⟨n, hb⟩ : Fin cfg0.N)) (ms0_2 (⟨n, hb⟩ : Fin cfg0.N)) (hs0_2 (⟨n, hb⟩ : Fin cfg0.N)) (ms0_3 (⟨n, hb⟩ : Fin cfg0.N)) (hs0_3 (⟨n, hb⟩ : Fin cfg0.N)) (ms0_4 (⟨n, hb⟩ : Fin cfg0.N)) (hs0_4 (⟨n, hb⟩ : Fin cfg0.N)) (ms0_5 (⟨n, hb⟩ : Fin cfg0.N)) (hs0_5 (⟨n, hb⟩ : Fin cfg0.N)) (ms0_6 (⟨n, hb⟩ : Fin cfg0.N)) (hs0_6 (⟨n, hb⟩ : Fin cfg0.N)) (ms0_7 (⟨n, hb⟩ : Fin cfg0.N)) (hs0_7 (⟨n, hb⟩ : Fin cfg0.N)) (ms0_8 (⟨n, hb⟩ : Fin cfg0.N)) (hs0_8 (⟨n, hb⟩ : Fin cfg0.N)) (ms0_9 (⟨n, hb⟩ : Fin cfg0.N)) (hs0_9 (⟨n, hb⟩ : Fin cfg0.N)) scM0_0 (Memref.isWhole_whole _) (fun h => h0 ((hcond0_0 (⟨n, hb⟩ : Fin cfg0.N)).mp h)) ((hcond0_1 (⟨n, hb⟩ : Fin cfg0.N)).mpr h1) (iblk m c 0 (⟨n, hb⟩ : Fin cfg0.N)) (iblk m c 1 (⟨n, hb⟩ : Fin cfg0.N)) (iblk m c 2 (⟨n, hb⟩ : Fin cfg0.N)) (iblk m c 3 (⟨n, hb⟩ : Fin cfg0.N)) (iblk m c 4 (⟨n, hb⟩ : Fin cfg0.N)) (iblk m c 5 (⟨n, hb⟩ : Fin cfg0.N)) (iblk m c 6 (⟨n, hb⟩ : Fin cfg0.N)) (iblk m c 7 (⟨n, hb⟩ : Fin cfg0.N)) acc) (ix2 p q)).trans ?_
    refine (Payloads.addTile_apply (sblk m c (⟨n, hb⟩ : Fin cfg0.N)) (wrecblk m c (⟨n, hb⟩ : Fin cfg0.N)) acc p q).trans ?_
    unfold tile; rw [dif_pos hb]
  · rw [dif_neg h1]
    refine (congrFun (Pieces.acc_next c (grid0.coords (⟨n, hb⟩ : Fin cfg0.N)) (ms0_0 (⟨n, hb⟩ : Fin cfg0.N)) (hs0_0 (⟨n, hb⟩ : Fin cfg0.N)) (ms0_1 (⟨n, hb⟩ : Fin cfg0.N)) (hs0_1 (⟨n, hb⟩ : Fin cfg0.N)) (ms0_2 (⟨n, hb⟩ : Fin cfg0.N)) (hs0_2 (⟨n, hb⟩ : Fin cfg0.N)) (ms0_3 (⟨n, hb⟩ : Fin cfg0.N)) (hs0_3 (⟨n, hb⟩ : Fin cfg0.N)) (ms0_4 (⟨n, hb⟩ : Fin cfg0.N)) (hs0_4 (⟨n, hb⟩ : Fin cfg0.N)) (ms0_5 (⟨n, hb⟩ : Fin cfg0.N)) (hs0_5 (⟨n, hb⟩ : Fin cfg0.N)) (ms0_6 (⟨n, hb⟩ : Fin cfg0.N)) (hs0_6 (⟨n, hb⟩ : Fin cfg0.N)) (ms0_7 (⟨n, hb⟩ : Fin cfg0.N)) (hs0_7 (⟨n, hb⟩ : Fin cfg0.N)) (ms0_8 (⟨n, hb⟩ : Fin cfg0.N)) (hs0_8 (⟨n, hb⟩ : Fin cfg0.N)) (ms0_9 (⟨n, hb⟩ : Fin cfg0.N)) (hs0_9 (⟨n, hb⟩ : Fin cfg0.N)) scM0_0 (Memref.isWhole_whole _) (fun h => h0 ((hcond0_0 (⟨n, hb⟩ : Fin cfg0.N)).mp h)) (fun h => h1 ((hcond0_1 (⟨n, hb⟩ : Fin cfg0.N)).mp h)) (iblk m c 0 (⟨n, hb⟩ : Fin cfg0.N)) (iblk m c 1 (⟨n, hb⟩ : Fin cfg0.N)) (iblk m c 2 (⟨n, hb⟩ : Fin cfg0.N)) (iblk m c 3 (⟨n, hb⟩ : Fin cfg0.N)) (iblk m c 4 (⟨n, hb⟩ : Fin cfg0.N)) (iblk m c 5 (⟨n, hb⟩ : Fin cfg0.N)) (iblk m c 6 (⟨n, hb⟩ : Fin cfg0.N)) (iblk m c 7 (⟨n, hb⟩ : Fin cfg0.N)) acc) (ix2 p q)).trans ?_
    refine (Payloads.addTile_apply (sblk m c (⟨n, hb⟩ : Fin cfg0.N)) (wrecblk m c (⟨n, hb⟩ : Fin cfg0.N)) acc p q).trans ?_
    unfold tile; rw [dif_pos hb]

/-- The scratch after point `t`: the row tile's input product plus its recurrent tiles up to `t`. -/
theorem scratch_at (c : Dev nD) (t : Fin cfg0.N) (i : S128x4096.Idx) :
    (outsAt0 m c t.val t.isLt).2.2 i
      = inprod m c (16 * (t.val / 16)) i + ∑ s ∈ Finset.range (t.val % 16 + 1), tile m c (16 * (t.val / 16) + s) i := by
  have hN := lt_of_lt_of_eq t.isLt N_eq
  refine (congrFun (soutsAt0_0_eq m c t) i).trans ?_
  exact Pipeline.accAt_add_apply (ι := S128x4096.Idx) (β := EReal) _ _ (inprod m c (16 * (t.val / 16))) (tile m c)
    (16 * (t.val / 16)) 15
    (fun h j => step_first m c _ h (by omega) _ j)
    (fun n h acc j hlt hle => step_next m c n h (by omega) acc j)
    (t.val % 16) (by omega) _ i

/-! ## Against the argument arrays -/

/-- The input product of row tile `t / 16`, over `X` and `W_in`. -/
theorem inprod_eq (c : Dev nD) (t : Fin cfg0.N) (p : Fin 128) (q : Fin 4096) :
    inprod m c (16 * (t.val / 16)) (ix2 p q) = ∑ d : Fin 1024, argX m c (ix2 (row t p) d) * argWin m c (ix2 q d) := by
  have hN := lt_of_lt_of_eq t.isLt N_eq
  have hb : 16 * (t.val / 16) < cfg0.N := lt_of_lt_of_eq (by omega : 16 * (t.val / 16) < 1024) N_eq.symm
  unfold inprod
  rw [dif_pos hb]
  refine Finset.sum_congr rfl fun d _ => ?_
  refine congrArg₂ (· * ·) ?_ ?_
  · exact Blocks.xBlock_apply m c ⟨16 * (t.val / 16), hb⟩ (ix2 p d) (ix2 (row t p) d)
      (by show 128 * (t.val / 16) + p.val = 128 * (16 * (t.val / 16) / 16) + p.val; omega) rfl
  · exact congrFun (Blocks.winBlock_eq m c ⟨16 * (t.val / 16), hb⟩) (ix2 q d)

/-- Recurrent tile `s` of row tile `t / 16`, over `state` and `W_rec`. -/
theorem tile_eq (c : Dev nD) (t : Fin cfg0.N) (s : Fin 16) (p : Fin 128) (q : Fin 4096) :
    tile m c (16 * (t.val / 16) + s.val) (ix2 p q)
      = ∑ j : Fin 256, argS m c (ix2 (row t p) (col s j)) * argWrec m c (ix2 q (col s j)) := by
  have hN := lt_of_lt_of_eq t.isLt N_eq
  have hs := s.isLt
  have hb : 16 * (t.val / 16) + s.val < cfg0.N := lt_of_lt_of_eq (by omega : 16 * (t.val / 16) + s.val < 1024) N_eq.symm
  unfold tile
  rw [dif_pos hb]
  refine Finset.sum_congr rfl fun j _ => ?_
  refine congrArg₂ (· * ·) ?_ ?_
  · exact Blocks.stateBlock_apply m c ⟨16 * (t.val / 16) + s.val, hb⟩ (ix2 p j) (ix2 (row t p) (col s j))
      (by show 128 * (t.val / 16) + p.val = 128 * ((16 * (t.val / 16) + s.val) / 16) + p.val; omega)
      (by show 256 * s.val + j.val = 256 * ((16 * (t.val / 16) + s.val) % 16) + j.val; omega)
  · exact Blocks.wrecBlock_apply m c ⟨16 * (t.val / 16) + s.val, hb⟩ (ix2 q j) (ix2 q (col s j)) rfl
      (by show 256 * s.val + j.val = 256 * ((16 * (t.val / 16) + s.val) % 16) + j.val; omega)

/-- After the last point of a row tile the scratch holds the input product plus the whole recurrent product. -/
theorem scratch_last (c : Dev nD) (t : Fin cfg0.N) (h15 : t.val % 16 = 15) (p : Fin 128) (q : Fin 4096) :
    (outsAt0 m c t.val t.isLt).2.2 (ix2 p q)
      = (∑ d : Fin 1024, argX m c (ix2 (row t p) d) * argWin m c (ix2 q d))
        + ∑ e : Fin 4096, argS m c (ix2 (row t p) e) * argWrec m c (ix2 q e) := by
  rw [scratch_at m c t (ix2 p q), inprod_eq m c t p q, h15]
  refine congrArg (_ + ·) ?_
  rw [Finset.sum_range (fun s => tile m c (16 * (t.val / 16) + s) (ix2 p q)),
    sum_tiles (a := 16) (b := 256) (n := 4096) rfl (fun e => argS m c (ix2 (row t p) e) * argWrec m c (ix2 q e))]
  exact Finset.sum_congr rfl fun s _ => tile_eq m c t s p q

end Cert.KernelIdeal.Acc

end
-- ==== Proof.KernelValue.lean ====
/-
  The cell's two result arrays after the run.

  The hidden-state and output blocks are stored, and written back, only at the last point of each row tile. There the
  finished accumulator holds the input product plus the whole recurrent product, so the hidden-state block is, row by
  row, the specification's new state at rows `128·(t/16) …`, and the output block its output there (the sum over the
  hidden units runs over that same block row). The 64 written-back blocks of 128 rows tile the 8192 rows, so each
  array ends holding the specification's function whole.
-/
import proofs.«108160_j50105088475253_1_alg».proof.Proof.Accumulator

set_option maxRecDepth 16384

noncomputable section

open scoped BigOperators
open Idealize.ShloMosaic Idealize.ShloMosaic.TcCoe Idealize.SL.Sem Idealize.ShloMosaic.ValueIdx
open Idealize.ShloMosaic.Pipeline (Dat)

namespace Cert.KernelIdeal.KValue

open Cert.KernelIdeal Cert.KernelIdeal.Gen Cert.KernelIdeal.Value Cert.RnnCell Cert.KernelIdeal.Acc

variable (m : (ℓ : Loc nD τ sig) → Buf (Elt Ideal) ℓ) (ρ : Dev nD → PrngReg)

/-- The new hidden state of the arguments, as contents of the hidden-state result array. -/
abbrev stateArr (c : Dev nD) : Buf (Elt Ideal) ((c : Thread nD τ).loc main_v5_0) :=
  newState (argX m c) (argS m c) (argWin m c) (argBin m c) (argWrec m c) (argBrec m c)

/-- The cell's output of the arguments, as contents of the output result array. -/
abbrev outArr (c : Dev nD) : Buf (Elt Ideal) ((c : Thread nD τ).loc main_v5_1) :=
  output (newState (argX m c) (argS m c) (argWin m c) (argBin m c) (argWrec m c) (argBrec m c)) (argWout m c) (argBout m c)

/-! ## The two output blocks at the last point of a row tile -/

/-- The hidden-state block is the activation of the finished accumulator with both biases. -/
theorem stateBlock_last (c : Dev nD) (t : Fin cfg0.N) (h15 : t.val % 16 = 15) :
    (outsAt0 m c t.val t.isLt).1
      = k0_pay3 (F := Ideal) (outsAt0 m c t.val t.isLt).2.2 (iblk m c 3 t) (iblk m c 5 t) := by
  have h0 : ¬t.val % 16 = 0 := by omega
  rw [outsAt0_C m c t h0 h15]
  dsimp only
  exact (Pieces.state_last c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) scM0_0 (Memref.isWhole_whole _) (fun h => h0 ((hcond0_0 t).mp h)) ((hcond0_1 t).mpr h15) (iblk m c 0 t) (iblk m c 1 t) (iblk m c 2 t) (iblk m c 3 t) (iblk m c 4 t) (iblk m c 5 t) (iblk m c 6 t) (iblk m c 7 t) _).trans
    (congrArg (fun a => k0_pay3 (F := Ideal) a (iblk m c 3 t) (iblk m c 5 t))
      (Pieces.acc_last c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) scM0_0 (Memref.isWhole_whole _) (fun h => h0 ((hcond0_0 t).mp h)) ((hcond0_1 t).mpr h15) (iblk m c 0 t) (iblk m c 1 t) (iblk m c 2 t) (iblk m c 3 t) (iblk m c 4 t) (iblk m c 5 t) (iblk m c 6 t) (iblk m c 7 t) _).symm)

/-- The output block is the activation of that hidden-state block times the output weights plus the output bias. -/
theorem outBlock_last (c : Dev nD) (t : Fin cfg0.N) (h15 : t.val % 16 = 15) :
    (outsAt0 m c t.val t.isLt).2.1
      = k0_pay4 (F := Ideal) (outsAt0 m c t.val t.isLt).2.2 (iblk m c 3 t) (iblk m c 5 t) (iblk m c 6 t) (iblk m c 7 t) := by
  have h0 : ¬t.val % 16 = 0 := by omega
  rw [outsAt0_C m c t h0 h15]
  dsimp only
  exact (Pieces.out_last c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) scM0_0 (Memref.isWhole_whole _) (fun h => h0 ((hcond0_0 t).mp h)) ((hcond0_1 t).mpr h15) (iblk m c 0 t) (iblk m c 1 t) (iblk m c 2 t) (iblk m c 3 t) (iblk m c 4 t) (iblk m c 5 t) (iblk m c 6 t) (iblk m c 7 t) _).trans
    (congrArg (fun a => k0_pay4 (F := Ideal) a (iblk m c 3 t) (iblk m c 5 t) (iblk m c 6 t) (iblk m c 7 t))
      (Pieces.acc_last c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) scM0_0 (Memref.isWhole_whole _) (fun h => h0 ((hcond0_0 t).mp h)) ((hcond0_1 t).mpr h15) (iblk m c 0 t) (iblk m c 1 t) (iblk m c 2 t) (iblk m c 3 t) (iblk m c 4 t) (iblk m c 5 t) (iblk m c 6 t) (iblk m c 7 t) _).symm)

/-- The activation of the finished accumulator at `(p, q)` is the new state at `(row, q)`. -/
theorem pay3_last_apply (c : Dev nD) (t : Fin cfg0.N) (h15 : t.val % 16 = 15) (p : Fin 128) (q : Fin 4096) :
    k0_pay3 (F := Ideal) (outsAt0 m c t.val t.isLt).2.2 (iblk m c 3 t) (iblk m c 5 t) (ix2 p q)
      = stateArr m c (ix2 (row t p) q) := by
  refine (Payloads.state_apply _ (iblk m c 3 t) (iblk m c 5 t) p q).trans ?_
  rw [scratch_last m c t h15 p q, congrFun (Blocks.binBlock_eq m c t) (ix1 q),
    congrFun (Blocks.brecBlock_eq m c t) (ix1 q), preact_comm]
  rfl

/-- The hidden-state block at `(p, q)`. -/
theorem state_last_apply (c : Dev nD) (t : Fin cfg0.N) (h15 : t.val % 16 = 15) (p : Fin 128) (q : Fin 4096) :
    (outsAt0 m c t.val t.isLt).1 (ix2 p q) = stateArr m c (ix2 (row t p) q) :=
  (congrFun (stateBlock_last m c t h15) (ix2 p q)).trans (pay3_last_apply m c t h15 p q)

/-- The output block at `(p, o)`. -/
theorem out_last_apply (c : Dev nD) (t : Fin cfg0.N) (h15 : t.val % 16 = 15) (p : Fin 128) (o : Fin 1024) :
    (outsAt0 m c t.val t.isLt).2.1 (ix2 p o) = outArr m c (ix2 (row t p) o) := by
  refine (congrFun (outBlock_last m c t h15) (ix2 p o)).trans ?_
  refine (Payloads.out_apply _ (iblk m c 3 t) (iblk m c 5 t) (iblk m c 6 t) (iblk m c 7 t) p o).trans ?_
  exact congrArg₂ (fun a b => max (a + b) 0)
    (Finset.sum_congr rfl fun h _ => congrArg₂ (· * ·) (pay3_last_apply m c t h15 p h)
      (congrFun (Blocks.woutBlock_eq m c t) (ix2 o h)))
    (congrFun (Blocks.boutBlock_eq m c t) (ix1 o))

/-! ## From blocks to the arrays -/

theorem idx_stateOut : ∀ t : Fin cfg0.N, win0_8.index t 0 = t.val / 16 ∧ win0_8.index t 1 = 0 :=
  (by decide +kernel : ∀ t : Fin grid0.N, win0_8.index t 0 = t.val / 16 ∧ win0_8.index t 1 = 0)
theorem idx_out : ∀ t : Fin cfg0.N, win0_9.index t 0 = t.val / 16 ∧ win0_9.index t 1 = 0 :=
  (by decide +kernel : ∀ t : Fin grid0.N, win0_9.index t 0 = t.val / 16 ∧ win0_9.index t 1 = 0)

/-- What a writing-back point writes to the hidden-state array is its block of the new state. -/
theorem flushed_state (c : Dev nD) (t : Fin cfg0.N) (hf : (cfg0.win 8).flush t = true) :
    (dats m 0 c).flushed 8 t = ((cfg0.win 8).blk t).view.read (Elt Ideal) (stateArr m c) := by
  have h15 : t.val % 16 = 15 := (flush0_8 t).mp hf
  rw [flushed8 m c t]
  refine funext fun (j : S128x4096.Idx) => ?_
  obtain ⟨p, q, rfl⟩ : ∃ (p : Fin 128) (q : Fin 4096), j = ix2 p q := ⟨j 0, j 1, eq_ix2 j⟩
  show (outsAt0 m c t.val t.isLt).1 (ix2 p q) = stateArr m c (((cfg0.win 8).blk t).view.emb (ix2 p q))
  rw [state_last_apply m c t h15 p q]
  refine congrArg (stateArr m c) (funext fun a => Fin.ext ?_)
  match a with
  | ⟨0, _⟩ => show 128 * (t.val / 16) + p.val = win0_8.index t 0 * 128 + 1 * p.val; rw [(idx_stateOut t).1]; omega
  | ⟨1, _⟩ => show q.val = win0_8.index t 1 * 4096 + 1 * q.val; rw [(idx_stateOut t).2]; omega

/-- What a writing-back point writes to the output array is its block of the output. -/
theorem flushed_out (c : Dev nD) (t : Fin cfg0.N) (hf : (cfg0.win 9).flush t = true) :
    (dats m 0 c).flushed 9 t = ((cfg0.win 9).blk t).view.read (Elt Ideal) (outArr m c) := by
  have h15 : t.val % 16 = 15 := (flush0_9 t).mp hf
  rw [flushed9 m c t]
  refine funext fun (j : S128x1024.Idx) => ?_
  obtain ⟨p, o, rfl⟩ : ∃ (p : Fin 128) (o : Fin 1024), j = ix2 p o := ⟨j 0, j 1, eq_ix2 j⟩
  show (outsAt0 m c t.val t.isLt).2.1 (ix2 p o) = outArr m c (((cfg0.win 9).blk t).view.emb (ix2 p o))
  rw [out_last_apply m c t h15 p o]
  refine congrArg (outArr m c) (funext fun a => Fin.ext ?_)
  match a with
  | ⟨0, _⟩ => show 128 * (t.val / 16) + p.val = win0_9.index t 0 * 128 + 1 * p.val; rw [(idx_out t).1]; omega
  | ⟨1, _⟩ => show o.val = win0_9.index t 1 * 1024 + 1 * o.val; rw [(idx_out t).2]; omega

/-- An index is in point `t`'s hidden-state block iff each coordinate is in the block's range. -/
theorem mem_stateBlk (t : Fin cfg0.N) (i : S8192x4096.Idx) :
    i ∈ ((cfg0.win 8).blk t).view.set ↔ ∀ a : Fin 2, win0_8.index t a * S128x4096.size a ≤ (i a).val
      ∧ (i a).val < win0_8.index t a * S128x4096.size a + S128x4096.size a := by
  show i ∈ ((View.whole main_v5_0).slice (win0_8.rect t)).set ↔ _
  rw [View.set_slice_whole, Rect.mem_set_unit]
  exact Iff.rfl

theorem mem_outBlk (t : Fin cfg0.N) (i : S8192x1024.Idx) :
    i ∈ ((cfg0.win 9).blk t).view.set ↔ ∀ a : Fin 2, win0_9.index t a * S128x1024.size a ≤ (i a).val
      ∧ (i a).val < win0_9.index t a * S128x1024.size a + S128x1024.size a := by
  show i ∈ ((View.whole main_v5_1).slice (win0_9.rect t)).set ↔ _
  rw [View.set_slice_whole, Rect.mem_set_unit]
  exact Iff.rfl

/-- The last point of row tile `r / 128`. -/
def lastPoint (r : ℕ) (hr : r < 8192) : Fin cfg0.N :=
  ⟨16 * (r / 128) + 15, lt_of_lt_of_eq (by omega : 16 * (r / 128) + 15 < 1024) N_eq.symm⟩

/-- Row `r` of the hidden-state array is written back by the last point of its row tile. -/
theorem cover_state (i : S8192x4096.Idx) :
    ∃ t : Fin cfg0.N, (cfg0.win 8).flush t = true ∧ i ∈ ((cfg0.win 8).blk t).view.set := by
  have hi0 : (i 0).val < 8192 := (i 0).isLt
  have hi1 : (i 1).val < 4096 := (i 1).isLt
  have hv : (lastPoint (i 0).val hi0).val = 16 * ((i 0).val / 128) + 15 := rfl
  refine ⟨lastPoint (i 0).val hi0, (flush0_8 _).mpr (by rw [hv]; omega), ?_⟩
  rw [mem_stateBlk]
  obtain ⟨e0, e1⟩ := idx_stateOut (lastPoint (i 0).val hi0)
  rw [hv] at e0
  intro a
  match a with
  | ⟨0, _⟩ =>
    show win0_8.index (lastPoint (i 0).val hi0) 0 * 128 ≤ (i 0).val
      ∧ (i 0).val < win0_8.index (lastPoint (i 0).val hi0) 0 * 128 + 128
    rw [e0]; omega
  | ⟨1, _⟩ =>
    show win0_8.index (lastPoint (i 0).val hi0) 1 * 4096 ≤ (i 1).val
      ∧ (i 1).val < win0_8.index (lastPoint (i 0).val hi0) 1 * 4096 + 4096
    rw [e1]; omega

/-- Row `r` of the output array likewise. -/
theorem cover_out (i : S8192x1024.Idx) :
    ∃ t : Fin cfg0.N, (cfg0.win 9).flush t = true ∧ i ∈ ((cfg0.win 9).blk t).view.set := by
  have hi0 : (i 0).val < 8192 := (i 0).isLt
  have hi1 : (i 1).val < 1024 := (i 1).isLt
  have hv : (lastPoint (i 0).val hi0).val = 16 * ((i 0).val / 128) + 15 := rfl
  refine ⟨lastPoint (i 0).val hi0, (flush0_9 _).mpr (by rw [hv]; omega), ?_⟩
  rw [mem_outBlk]
  obtain ⟨e0, e1⟩ := idx_out (lastPoint (i 0).val hi0)
  rw [hv] at e0
  intro a
  match a with
  | ⟨0, _⟩ =>
    show win0_9.index (lastPoint (i 0).val hi0) 0 * 128 ≤ (i 0).val
      ∧ (i 0).val < win0_9.index (lastPoint (i 0).val hi0) 0 * 128 + 128
    rw [e0]; omega
  | ⟨1, _⟩ =>
    show win0_9.index (lastPoint (i 0).val hi0) 1 * 1024 ≤ (i 1).val
      ∧ (i 1).val < win0_9.index (lastPoint (i 0).val hi0) 1 * 1024 + 1024
    rw [e1]; omega

/-- The hidden-state array after the run. -/
theorem final_state (c : Dev nD) : (dats m 0 c).arrAt 8 cfg0.N = stateArr m c :=
  (dats m 0 c).arrAt_eq_of_cover 8 (stateArr m c) (flushed_state m c) cover_state

/-- The output array after the run. -/
theorem final_out (c : Dev nD) : (dats m 0 c).arrAt 9 cfg0.N = outArr m c :=
  (dats m 0 c).arrAt_eq_of_cover 9 (outArr m c) (flushed_out m c) cover_out

/-- The run: both result arrays at the specification's functions of the arguments, the arguments unchanged. -/
theorem run : θ_run defs (onTc (τ := τ) (main (F := Ideal))) ⟨m, fun _ => 0, ρ⟩ fun r => ∀ c : Dev nD,
      r.2.mem ((c : Thread nD τ).loc main_v5_1) = outArr m c
      ∧ r.2.mem ((c : Thread nD τ).loc main_v5_0) = stateArr m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6)
      ∧ r.2.mem ((c : Thread nD τ).loc main_arg7) = m ((c : Thread nD τ).loc main_arg7) :=
  (θ_run defs _ _).mono (fun r h c => ⟨(h c).2.1.trans (final_out m c), (h c).1.trans (final_state m c), (h c).2.2⟩)
    (Value.run_blocks m ρ)

end Cert.KernelIdeal.KValue

end
-- ==== Proof.RefValue.lean ====
/-
  The reference's two results are the specification's functions of the arguments.

  Read one operation at a time, the reference's hidden state at `(r, h)` is the maximum with zero of
  `((Σ_d X(r,d)·W_in(h,d) + b_in(h)) + Σ_e S(r,e)·W_rec(h,e)) + b_rec(h)` (each transposed weight read back at the
  swapped index, each bias broadcast along the rows), and its output at `(r, o)` the maximum with zero of
  `Σ_h state(r,h)·W_out(o,h) + b_out(o)`.
-/
import proofs.«108160_j50105088475253_1_alg».proof.Proof.Gen.ReferenceIdeal.Read
import proofs.«108160_j50105088475253_1_alg».proof.Proof.Spec

noncomputable section

open scoped BigOperators
open Idealize.ShloMosaic Idealize.ShloMosaic.ValueIdx

namespace Cert.ReferenceIdeal.RefValue

open Cert.ReferenceIdeal Cert.ReferenceIdeal.Read Cert.RnnCell

/-- The reference's hidden state. -/
theorem state_eq (x0 : FVec Ideal S8192x1024 .f32) (x1 : FVec Ideal S8192x4096 .f32) (x2 : FVec Ideal S4096x1024 .f32)
    (x3 : FVec Ideal S4096 .f32) (x4 : FVec Ideal S4096x4096 .f32) (x5 : FVec Ideal S4096 .f32) :
    val_main_v11 (F := Ideal) x0 x1 x2 x3 x4 x5 = newState x0 x1 x2 x3 x4 x5 := by
  funext i
  obtain ⟨r, h, rfl⟩ : ∃ (r : Fin 8192) (h : Fin 4096), i = ix2 r h := ⟨i 0, i 1, eq_ix2 i⟩
  have e1 : ∀ k : Fin 1024, lidx_main_v1 (ix2 r h) k = ix2 r k := fun k =>
    funext fun a => Fin.ext (by match a with | ⟨0, _⟩ => rfl | ⟨1, _⟩ => rfl)
  have e2 : ∀ k : Fin 1024, idx_main_v0 (ridx_main_v1 (ix2 r h) k) = ix2 h k := fun k =>
    funext fun a => Fin.ext (by match a with | ⟨0, _⟩ => rfl | ⟨1, _⟩ => rfl)
  have e3 : idx_main_v2 (idx_main_v3 (ix2 r h)) = ix1 h :=
    funext fun a => Fin.ext (by match a with | ⟨0, _⟩ => rfl)
  have e4 : ∀ k : Fin 4096, lidx_main_v6 (ix2 r h) k = ix2 r k := fun k =>
    funext fun a => Fin.ext (by match a with | ⟨0, _⟩ => rfl | ⟨1, _⟩ => rfl)
  have e5 : ∀ k : Fin 4096, idx_main_v5 (ridx_main_v6 (ix2 r h) k) = ix2 h k := fun k =>
    funext fun a => Fin.ext (by match a with | ⟨0, _⟩ => rfl | ⟨1, _⟩ => rfl)
  have e6 : idx_main_v8 (idx_main_v9 (ix2 r h)) = ix1 h :=
    funext fun a => Fin.ext (by match a with | ⟨0, _⟩ => rfl)
  rw [val_main_v11_apply, val_main_v10_apply, val_main_v7_apply, val_main_v4_apply, val_main_v1_apply,
    val_main_v3_apply, val_main_v2_apply, val_main_v6_apply, val_main_v9_apply, val_main_v8_apply,
    val_main_call0_v0_apply, val_main_call0_cst_apply]
  simp only [val_main_v0_apply, val_main_v5_apply, e1, e2, e3, e4, e5, e6, Ideal.addf_def, Ideal.maximumf_def,
    Ideal.ofBits_def, Ideal.ofBits_zero_f32]
  rfl

/-- The reference's output, over its hidden state. -/
theorem out_eq (x0 : FVec Ideal S8192x1024 .f32) (x1 : FVec Ideal S8192x4096 .f32) (x2 : FVec Ideal S4096x1024 .f32)
    (x3 : FVec Ideal S4096 .f32) (x4 : FVec Ideal S4096x4096 .f32) (x5 : FVec Ideal S4096 .f32)
    (x6 : FVec Ideal S1024x4096 .f32) (x7 : FVec Ideal S1024 .f32) :
    val_main_v17 (F := Ideal) x0 x1 x2 x3 x4 x5 x6 x7 = output (newState x0 x1 x2 x3 x4 x5) x6 x7 := by
  rw [← state_eq]
  funext i
  obtain ⟨r, o, rfl⟩ : ∃ (r : Fin 8192) (o : Fin 1024), i = ix2 r o := ⟨i 0, i 1, eq_ix2 i⟩
  have e1 : ∀ k : Fin 4096, lidx_main_v13 (ix2 r o) k = ix2 r k := fun k =>
    funext fun a => Fin.ext (by match a with | ⟨0, _⟩ => rfl | ⟨1, _⟩ => rfl)
  have e2 : ∀ k : Fin 4096, idx_main_v12 (ridx_main_v13 (ix2 r o) k) = ix2 o k := fun k =>
    funext fun a => Fin.ext (by match a with | ⟨0, _⟩ => rfl | ⟨1, _⟩ => rfl)
  have e3 : idx_main_v14 (idx_main_v15 (ix2 r o)) = ix1 o :=
    funext fun a => Fin.ext (by match a with | ⟨0, _⟩ => rfl)
  rw [val_main_v17_apply, val_main_v16_apply, val_main_v13_apply, val_main_v15_apply, val_main_v14_apply,
    val_main_call1_v0_apply, val_main_call1_cst_apply]
  simp only [val_main_v12_apply, e1, e2, e3, Ideal.addf_def, Ideal.maximumf_def, Ideal.ofBits_def, Ideal.ofBits_zero_f32]
  rfl

end Cert.ReferenceIdeal.RefValue

end
-- ==== Proof.lean ====
/-
  A single-step recurrent cell, computed tile by tile, against its plain definition.

  Both programs compute, from `X` [8192,1024], `state` [8192,4096], weights `W_in`, `W_rec`, `W_out` and biases
  `b_in`, `b_rec`, `b_out`,

    new_state (r, h) = max (X·W_inᵀ + state·W_recᵀ + b_in + b_rec) 0        out (r, o) = max (new_state·W_outᵀ + b_out) 0.

  The kernel walks a 64 × 16 grid: for each tile of 128 rows it resets an accumulator to the input product, adds the
  recurrent product 256 columns at a time over 16 points, and at the tile's last point adds both biases, applies the
  activation, writes the hidden-state block and from it the output block. The reference adds the input bias before
  the recurrent product and forms each product whole. On the extended reals the two are one function: a sum over
  4096 terms is the sum of its 16 tiles of 256, addition is commutative and associative there (infinities included, so
  the inputs' finiteness is not used), every transposed weight is read back at the swapped index, and the narrowing
  of float formats is the identity.

  The word-level kernel and its idealization run to completion leaving the arguments unchanged (their generated
  frames); the idealization rewrote nothing; the reference's run is its generated straight-line run.
-/
import proofs.«108160_j50105088475253_1_alg».proof.Defs
import proofs.«108160_j50105088475253_1_alg».proof.Proof.Gen.Kernel
import proofs.«108160_j50105088475253_1_alg».proof.Proof.Gen.Kernel.Skeleton
import proofs.«108160_j50105088475253_1_alg».proof.Proof.Gen.Kernel.Launch
import proofs.«108160_j50105088475253_1_alg».proof.Proof.Gen.Kernel.Points
import proofs.«108160_j50105088475253_1_alg».proof.Proof.Gen.Kernel.Frame
import proofs.«108160_j50105088475253_1_alg».proof.Proof.Gen.KernelIdeal
import proofs.«108160_j50105088475253_1_alg».proof.Proof.Gen.KernelIdeal.Skeleton
import proofs.«108160_j50105088475253_1_alg».proof.Proof.Gen.KernelIdeal.Launch
import proofs.«108160_j50105088475253_1_alg».proof.Proof.Gen.KernelIdeal.Points
import proofs.«108160_j50105088475253_1_alg».proof.Proof.Gen.KernelIdeal.Frame
import proofs.«108160_j50105088475253_1_alg».proof.Proof.Gen.ReferenceIdeal
import proofs.«108160_j50105088475253_1_alg».proof.Proof.Gen.Pre_finite_inputs
import proofs.«108160_j50105088475253_1_alg».proof.Proof.Gen.KernelIdeal.Value
import proofs.«108160_j50105088475253_1_alg».proof.Proof.Gen.ReferenceIdeal.Run
import proofs.«108160_j50105088475253_1_alg».proof.Proof.Gen.ReferenceIdeal.Read
import proofs.«108160_j50105088475253_1_alg».proof.Proof.KernelValue
import proofs.«108160_j50105088475253_1_alg».proof.Proof.RefValue
import Idealize.ShloMosaic.Adequacy
import Idealize.ShloMosaic.Init

noncomputable section

namespace Cert.Proof

open Idealize.ShloMosaic Idealize.SL.Sem

/-- From memories that agree on the arguments, the tiled cell and the plain cell end with the same output and the
    same new hidden state. -/
theorem algebraic : Cert.algebraic_KernelIdeal_ReferenceIdeal := by
  intro m ρ m' ρ' _ hagree
  refine ⟨fun c => Cert.KernelIdeal.KValue.outArr m c, fun c => Cert.KernelIdeal.KValue.stateArr m c,
    Cert.KernelIdeal.KValue.run m ρ, ?_⟩
  refine (θ_run Cert.ReferenceIdeal.defs _ _).mono
    (fun _ h c => ⟨(h c).1.trans ?_, (h c).2.1.trans ?_, (h c).2.2⟩)
    (Cert.ReferenceIdeal.Value.run (F := Ideal) m' ρ')
  · rw [Cert.ReferenceIdeal.Read.val_main_v17_eq, Cert.ReferenceIdeal.RefValue.out_eq,
      (hagree c).1, (hagree c).2.1, (hagree c).2.2.1, (hagree c).2.2.2.1, (hagree c).2.2.2.2.1,
      (hagree c).2.2.2.2.2.1, (hagree c).2.2.2.2.2.2.1, (hagree c).2.2.2.2.2.2.2]
  · rw [Cert.ReferenceIdeal.Read.val_main_v11_eq, Cert.ReferenceIdeal.RefValue.state_eq,
      (hagree c).1, (hagree c).2.1, (hagree c).2.2.1, (hagree c).2.2.2.1, (hagree c).2.2.2.2.1,
      (hagree c).2.2.2.2.2.1]

theorem claim : Cert.Claim := ⟨Cert.Kernel.Gen.facts, Cert.KernelIdeal.Gen.facts, Cert.ReferenceIdeal.Gen.facts, Cert.Pre_finite_inputs.Gen.facts,
  fun m ρ _ => Cert.Kernel.Gen.frame m ρ,
  fun m ρ _ => Cert.KernelIdeal.Gen.frame m ρ,
  fun m ρ _ => (θ_run Cert.ReferenceIdeal.defs _ _).mono (fun _ h c => (h c).2.2)
    (Cert.ReferenceIdeal.Value.run (F := Ideal) m ρ),
  trivial,
  algebraic⟩

end Cert.Proof

end
